-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S8192x1024 .f32) (main_arg2 : FVec F S8192x1024 .f32) (main_arg3 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Kernel.lean ====
abbrev S8192x1024 : Shape := ⟨2, ![8192, 1024]⟩
abbrev S8192 : Shape := ⟨1, ![8192]⟩
abbrev S1024x1024 : Shape := ⟨2, ![1024, 1024]⟩
abbrev S1024 : Shape := ⟨1, ![1024]⟩
abbrev S1024x1 : Shape := ⟨2, ![1024, 1]⟩
abbrev S512x1024 : Shape := ⟨2, ![512, 1024]⟩
abbrev S512 : Shape := ⟨1, ![512]⟩
abbrev S1024x512 : Shape := ⟨2, ![1024, 512]⟩
abbrev S1x512 : Shape := ⟨2, ![1, 512]⟩
abbrev S_ : Shape := ⟨0, ![]⟩
abbrev S200 : Shape := ⟨1, ![200]⟩
abbrev S8192x1 : Shape := ⟨2, ![8192, 1]⟩

abbrev nBuf : Space → Nat
  | .hbm => 42
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .i32⟩
  | .hbm, ⟨4, _⟩ => ⟨S8192x1024, .bf16⟩
  | .hbm, ⟨5, _⟩ => ⟨S8192, .f32⟩
  | .hbm, ⟨6, _⟩ => ⟨S8192, .f32⟩
  | .hbm, ⟨7, _⟩ => ⟨S_, .f32⟩
  | .hbm, ⟨8, _⟩ => ⟨S200, .f32⟩
  | .hbm, ⟨9, _⟩ => ⟨S8192x1, .i32⟩
  | .hbm, ⟨10, _⟩ => ⟨S200, .f32⟩
  | .hbm, ⟨11, _⟩ => ⟨S_, .f32⟩
  | .hbm, ⟨12, _⟩ => ⟨S200, .f32⟩
  | .hbm, ⟨13, _⟩ => ⟨S8192x1, .i32⟩
  | .hbm, ⟨14, _⟩ => ⟨S200, .f32⟩
  | .hbm, ⟨15, _⟩ => ⟨S_, .f32⟩
  | .hbm, ⟨16, _⟩ => ⟨S8192, .f32⟩
  | .hbm, ⟨17, _⟩ => ⟨S_, .f32⟩
  | .hbm, ⟨18, _⟩ => ⟨S200, .f32⟩
  | .hbm, ⟨19, _⟩ => ⟨S8192x1, .i32⟩
  | .hbm, ⟨20, _⟩ => ⟨S200, .f32⟩
  | .hbm, ⟨21, _⟩ => ⟨S_, .f32⟩
  | .hbm, ⟨22, _⟩ => ⟨S200, .f32⟩
  | .hbm, ⟨23, _⟩ => ⟨S200, .i1⟩
  | .hbm, ⟨24, _⟩ => ⟨S_, .f32⟩
  | .hbm, ⟨25, _⟩ => ⟨S_, .f32⟩
  | .hbm, ⟨26, _⟩ => ⟨S200, .f32⟩
  | .hbm, ⟨27, _⟩ => ⟨S200, .f32⟩
  | .hbm, ⟨28, _⟩ => ⟨S_, .f32⟩
  | .hbm, ⟨29, _⟩ => ⟨S_, .f32⟩
  | .hbm, ⟨30, _⟩ => ⟨S200, .f32⟩
  | .hbm, ⟨31, _⟩ => ⟨S200, .f32⟩
  | .hbm, ⟨32, _⟩ => ⟨S200, .f32⟩
  | .hbm, ⟨33, _⟩ => ⟨S200, .f32⟩
  | .hbm, ⟨34, _⟩ => ⟨S_, .f32⟩
  | .hbm, ⟨35, _⟩ => ⟨S_, .f32⟩
  | .hbm, ⟨36, _⟩ => ⟨S200, .f32⟩
  | .hbm, ⟨37, _⟩ => ⟨S200, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S512x1024, .bf16⟩
  | .local _ .vmem, ⟨7, _⟩ => ⟨S512x1024, .bf16⟩
  | .local _ .vmem, ⟨8, _⟩ => ⟨S1024, .i32⟩
  | .local _ .vmem, ⟨9, _⟩ => ⟨S1024, .i32⟩
  | .local _ .vmem, ⟨10, _⟩ => ⟨S512, .i32⟩
  | .local _ .vmem, ⟨11, _⟩ => ⟨S512, .i32⟩
  | .local _ .vmem, ⟨12, _⟩ => ⟨S1024, .f32⟩
  | .local _ .vmem, ⟨13, _⟩ => ⟨S1024, .f32⟩
  | .local _ .vmem, ⟨14, _⟩ => ⟨S1024, .f32⟩
  | .local _ .vmem, ⟨15, _⟩ => ⟨S1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_5 : Ref sig .tc := ⟨.hbm, 28, rfl⟩
abbrev main_call1_v0 : Ref sig .tc := ⟨.hbm, 29, rfl⟩
abbrev main_call1_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_v18 : Ref sig .tc := ⟨.hbm, 37, rfl⟩
abbrev main_cst_7 : Ref sig .tc := ⟨.hbm, 38, rfl⟩
abbrev main_v19 : Ref sig .tc := ⟨.hbm, 39, rfl⟩
abbrev main_cst_8 : Ref sig .tc := ⟨.hbm, 40, rfl⟩
abbrev main_v20 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  inb_S1024_S1024_0 : ∀ a, (![0] : Fin 1 → Nat) a + S1024.size a ≤ S1024.size a
  h_S1024 : 0 < S1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512_S512_0 : ∀ a, (![0] : Fin 1 → Nat) a + S512.size a ≤ S512.size a
  h_S512 : 0 < S512.numel
  shapeCasts_S512_S1x512 : S512.ShapeCasts S1x512
  broadcasts_S1024x1_S1024x512 : S1024x1.Broadcasts S1024x512
  broadcasts_S1x512_S1024x512 : S1x512.Broadcasts S1024x512
  iota_S1024x512_d0_w32 : S1024x512.Iotas .tc 32 [0]
  iota_S1024x512_d1_w32 : S1024x512.Iotas .tc 32 [1]
  shapeCasts_S1024_S1024 : S1024.ShapeCasts S1024
  reduces_S1024x512_S1024 : S1024x512.Reduces [1] S1024
  bcast_S_S200 : S_.BroadcastsInDim S200 (![] : Fin 0 → Fin S200.rank)
  bcast_S8192_S8192x1_0 : S8192.BroadcastsInDim S8192x1 (![0] : Fin 1 → Fin S8192x1.rank)
  bcast_S_S8192 : S_.BroadcastsInDim S8192 (![] : Fin 0 → Fin S8192.rank)
  reducesTo_S200_S_d0 : S200.ReducesTo [0] S_
  h_S_ : 0 < S_.numel
  dot_S1024x1024_S512x1024_S1024x512_1_1_0_0_n_n_wf : DotDims.WF S1024x1024 S512x1024 S1024x512 [1] [1] [0] [0] [] []
  scatter_S200_S8192x1_S8192_n_0_0_1_wf : ScatterDims.WF S200 S8192x1 S8192 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .bf16 = 32 ∨ (Rect.block (s := S8192x1024) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S8192.size a
  hwx1_2 : ∀ i : grid1.Coords, EltTy.bits .i32 = 32 ∨ (Rect.block (s := S8192) S1024.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512.size a ≤ S8192.size a
  hwx1_3 : ∀ i : grid1.Coords, EltTy.bits .i32 = 32 ∨ (Rect.block (s := S8192) S512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024.size a ≤ S8192.size a
  hwx1_4 : ∀ i : grid1.Coords, EltTy.bits .f32 = 32 ∨ (Rect.block (s := S8192) S1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024.size a ≤ S8192.size a
  hwx1_5 : ∀ i : grid1.Coords, EltTy.bits .f32 = 32 ∨ (Rect.block (s := S8192) S1024.size (cc1_transform_5 i) (hinb1_5 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def scatter_S200_S8192x1_S8192_n_0_0_1 : ScatterDims S200 S8192x1 S8192 where
  updateWindowDims := []
  insertedWindowDims := [0]
  scatterDimsToOperandDims := [0]
  indexVectorDim := 1
  wf := scatter_S200_S8192x1_S8192_n_0_0_1_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v1_0) S1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v1_1) S1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1024x8192 : Shape := ⟨2, ![1024, 8192]⟩
abbrev S8192x8192 : Shape := ⟨2, ![8192, 8192]⟩
abbrev S1x8192 : Shape := ⟨2, ![1, 8192]⟩
abbrev S200 : Shape := ⟨1, ![200]⟩

abbrev nBuf : Space → Nat
  | .hbm => 78
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192, .i32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S1024x8192, .f32⟩
  | .hbm, ⟨15, _⟩ => ⟨S8192x8192, .f32⟩
  | .hbm, ⟨16, _⟩ => ⟨S8192x8192, .f32⟩
  | .hbm, ⟨17, _⟩ => ⟨S8192x1, .i32⟩
  | .hbm, ⟨18, _⟩ => ⟨S1x8192, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .i32⟩
  | .hbm, ⟨23, _⟩ => ⟨S8192x8192, .i32⟩
  | .hbm, ⟨24, _⟩ => ⟨S_, .i32⟩
  | .hbm, ⟨25, _⟩ => ⟨S8192x8192, .i32⟩
  | .hbm, ⟨26, _⟩ => ⟨S8192x8192, .i32⟩
  | .hbm, ⟨27, _⟩ => ⟨S8192x8192, .i1⟩
  | .hbm, ⟨28, _⟩ => ⟨S8192x8192, .i1⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S8192x8192, .i1⟩
  | .hbm, ⟨37, _⟩ => ⟨S_, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S200, .f32⟩
  | .hbm, ⟨45, _⟩ => ⟨S8192x1, .i32⟩
  | .hbm, ⟨46, _⟩ => ⟨S200, .f32⟩
  | .hbm, ⟨47, _⟩ => ⟨S_, .f32⟩
  | .hbm, ⟨48, _⟩ => ⟨S200, .f32⟩
  | .hbm, ⟨49, _⟩ => ⟨S8192x1, .i32⟩
  | .hbm, ⟨50, _⟩ => ⟨S200, .f32⟩
  | .hbm, ⟨51, _⟩ => ⟨S_, .f32⟩
  | .hbm, ⟨52, _⟩ => ⟨S8192, .f32⟩
  | .hbm, ⟨53, _⟩ => ⟨S_, .f32⟩
  | .hbm, ⟨54, _⟩ => ⟨S200, .f32⟩
  | .hbm, ⟨55, _⟩ => ⟨S8192x1, .i32⟩
  | .hbm, ⟨56, _⟩ => ⟨S200, .f32⟩
  | .hbm, ⟨57, _⟩ => ⟨S_, .f32⟩
  | .hbm, ⟨58, _⟩ => ⟨S200, .f32⟩
  | .hbm, ⟨59, _⟩ => ⟨S200, .i1⟩
  | .hbm, ⟨60, _⟩ => ⟨S_, .f32⟩
  | .hbm, ⟨61, _⟩ => ⟨S_, .f32⟩
  | .hbm, ⟨62, _⟩ => ⟨S200, .f32⟩
  | .hbm, ⟨63, _⟩ => ⟨S200, .f32⟩
  | .hbm, ⟨64, _⟩ => ⟨S_, .f32⟩
  | .hbm, ⟨65, _⟩ => ⟨S_, .f32⟩
  | .hbm, ⟨66, _⟩ => ⟨S200, .f32⟩
  | .hbm, ⟨67, _⟩ => ⟨S200, .f32⟩
  | .hbm, ⟨68, _⟩ => ⟨S200, .f32⟩
  | .hbm, ⟨69, _⟩ => ⟨S200, .f32⟩
  | .hbm, ⟨70, _⟩ => ⟨S_, .f32⟩
  | .hbm, ⟨71, _⟩ => ⟨S_, .f32⟩
  | .hbm, ⟨72, _⟩ => ⟨S200, .f32⟩
  | .hbm, ⟨73, _⟩ => ⟨S200, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_call2_v0 : Ref sig .tc := ⟨.hbm, 38, rfl⟩
abbrev main_call2_v1 : Ref sig .tc := ⟨.hbm, 39, rfl⟩
abbrev main_v23 : Ref sig .tc := ⟨.hbm, 40, rfl⟩
abbrev main_cst_3 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_cst_9 : Ref sig .tc := ⟨.hbm, 60, rfl⟩
abbrev main_call3_v0 : Ref sig .tc := ⟨.hbm, 61, rfl⟩
abbrev main_call3_v1 : Ref sig .tc := ⟨.hbm, 62, rfl⟩
abbrev main_v37 : Ref sig .tc := ⟨.hbm, 63, rfl⟩
abbrev main_cst_10 : Ref sig .tc := ⟨.hbm, 64, rfl⟩
abbrev main_call4_v0 : Ref sig .tc := ⟨.hbm, 65, rfl⟩
abbrev main_call4_v1 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_11 : Ref sig .tc := ⟨.hbm, 70, rfl⟩
abbrev main_call5_v0 : Ref sig .tc := ⟨.hbm, 71, rfl⟩
abbrev main_call5_v1 : Ref sig .tc := ⟨.hbm, 72, rfl⟩
abbrev main_v41 : Ref sig .tc := ⟨.hbm, 73, rfl⟩
abbrev main_cst_12 : Ref sig .tc := ⟨.hbm, 74, rfl⟩
abbrev main_v42 : Ref sig .tc := ⟨.hbm, 75, rfl⟩
abbrev main_cst_13 : Ref sig .tc := ⟨.hbm, 76, rfl⟩
abbrev main_v43 : Ref sig .tc := ⟨.hbm, 77, rfl⟩

abbrev nD : Nat := 1
abbrev τ : Topo := Topo.v7x

variable {F : FTy → Type} [FloatOps F]

class Facts₀ : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S200 : S_.BroadcastsInDim S200 (![] : Fin 0 → Fin S200.rank)
  bcast_S_S8192 : S_.BroadcastsInDim S8192 (![] : Fin 0 → Fin S8192.rank)
  reducesTo_S200_S_d0 : S200.ReducesTo [0] S_
  dot_S8192x1024_S1024x8192_S8192x8192_1_0_0_1_n_n_wf : DotDims.WF S8192x1024 S1024x8192 S8192x8192 [1] [0] [0] [1] [] []
  scatter_S200_S8192x1_S8192_n_0_0_1_wf : ScatterDims.WF S200 S8192x1 S8192 [] [0] [0] 1

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def scatter_S200_S8192x1_S8192_n_0_0_1 : ScatterDims S200 S8192x1 S8192 where
  updateWindowDims := []
  insertedWindowDims := [0]
  scatterDimsToOperandDims := [0]
  indexVectorDim := 1
  wf := scatter_S200_S8192x1_S8192_n_0_0_1_wf

class Facts : Prop extends Facts₀ where

variable [Facts]
-- ==== Proof.K.Data.lean ====
/-
  The proof data of the two kernel regions, at any float family `F` and at a PARAMETER `V`: the TensorCore's
  buffer contents when the region is entered.

  Region 0 (row normalisation, grid of 8 row blocks of 1024 rows): window 0 reads block `t` of the input, window 1
  receives `z / max (sqrt (sum z²), eps)` of that block, written back at every point.

  Region 1 (pairwise sums, grid 8 × 16, point `t = 16 i + j`): windows 0 and 2 read row block `i` of the normalised
  rows and of the labels, windows 1 and 3 read column block `j` of the same two arrays; windows 4 and 5 are the two
  accumulators of row block `i`. At `j = 0` the body resets both to zero and adds tile `(i, 0)`'s row sums; at
  `j > 0` it adds tile `(i, j)`'s row sums to what point `t - 1` left. So what the accumulators hold after point
  `t` is a recursion on the point (`accS`, `accD`), restarted at every multiple of 16.
-/
import proofs.«136886_j28595892256874_1_alg».proof.Proof.Gen.Kernel.Launch
import proofs.«136886_j28595892256874_1_alg».proof.Proof.Gen.Kernel.Skeleton
import proofs.«136886_j28595892256874_1_alg».proof.Proof.Gen.Kernel.Points
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.Sem
open Idealize.ShloMosaic.Pipeline (Dat)

variable {F : FTy → Type} [FloatOps F]
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the input's buffer keeps its block, the output's holds the normalised block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero block both accumulators are reset to. -/
abbrev zero1 : Vec F S1024 .f32 := k1_pay2 (F := F)

/-- The same-class accumulator after point `n`: tile `n`'s masked row sums added to zero at a point that starts a row
    block, to what the point before left otherwise. -/
def accS (c : Dev nD) : (n : ℕ) → n < cfg1.N → Vec F S1024 .f32
  | 0, hn => k1_pay7 (grid1.coords ⟨0, hn⟩) (iblk1 V c 0 ⟨0, hn⟩) (iblk1 V c 1 ⟨0, hn⟩) (iblk1 V c 2 ⟨0, hn⟩) (iblk1 V c 3 ⟨0, hn⟩) (k1_pay2 (F := F))
  | n + 1, hn =>
    k1_pay7 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 16 = 0 then k1_pay2 (F := F) else accS c n (Nat.lt_of_succ_lt hn))

/-- The different-class accumulator after point `n`, likewise. -/
def accD (c : Dev nD) : (n : ℕ) → n < cfg1.N → Vec F S1024 .f32
  | 0, hn => k1_pay1 (k1_pay6 (iblk1 V c 0 ⟨0, hn⟩) (iblk1 V c 1 ⟨0, hn⟩) (iblk1 V c 2 ⟨0, hn⟩) (iblk1 V c 3 ⟨0, hn⟩)) (k1_pay8 (k1_pay3 (F := F)))
  | n + 1, hn =>
    k1_pay1 (k1_pay6 (iblk1 V c 0 ⟨n + 1, hn⟩) (iblk1 V c 1 ⟨n + 1, hn⟩) (iblk1 V c 2 ⟨n + 1, hn⟩) (iblk1 V c 3 ⟨n + 1, hn⟩))
      (k1_pay8 (if (n + 1) % 16 = 0 then k1_pay3 (F := F) else accD c n (Nat.lt_of_succ_lt hn)))

/-- Region 1's proof data. Windows 0 and 1 read ONE array (the normalised rows), windows 2 and 3 ONE array (the labels):
    each pair holds its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accS V c t.val t.isLt
    | ⟨5, _⟩ => accD V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accS V c t.val t.isLt := by dsimp only [dat1]
theorem after1_5 (c : Dev nD) (t : Fin cfg1.N) : (dat1 V c).after 5 t = accD V c t.val t.isLt := by dsimp only [dat1]

/-- The accumulators at a point that starts a row block. -/
theorem accS_reset (c : Dev nD) (t : Fin cfg1.N) (h0 : t.val % 16 = 0) :
    accS V c t.val t.isLt = k1_pay7 (grid1.coords t) (iblk1 V c 0 t) (iblk1 V c 1 t) (iblk1 V c 2 t) (iblk1 V c 3 t) (k1_pay2 (F := F)) := by
  obtain ⟨n, hn⟩ := t
  cases n with
  | zero => rfl
  | succ n => simp only [accS, if_pos h0]
theorem accD_reset (c : Dev nD) (t : Fin cfg1.N) (h0 : t.val % 16 = 0) :
    accD V c t.val t.isLt = k1_pay1 (k1_pay6 (iblk1 V c 0 t) (iblk1 V c 1 t) (iblk1 V c 2 t) (iblk1 V c 3 t)) (k1_pay8 (k1_pay3 (F := F))) := by
  obtain ⟨n, hn⟩ := t
  cases n with
  | zero => rfl
  | succ n => simp only [accD, if_pos h0]

/-- The accumulators at a later point of a row block: over what the point before left. -/
theorem accS_step (c : Dev nD) (t : Fin cfg1.N) (h0 : ¬t.val % 16 = 0) :
    accS V c t.val t.isLt = k1_pay7 (grid1.coords t) (iblk1 V c 0 t) (iblk1 V c 1 t) (iblk1 V c 2 t) (iblk1 V c 3 t)
      (accS V c (t.val - 1) (Nat.lt_of_le_of_lt (Nat.sub_le _ _) t.isLt)) := by
  obtain ⟨n, hn⟩ := t
  cases n with
  | zero => exact absurd (Nat.zero_mod _) h0
  | succ n => simp only [accS, if_neg h0]; rfl
theorem accD_step (c : Dev nD) (t : Fin cfg1.N) (h0 : ¬t.val % 16 = 0) :
    accD V c t.val t.isLt = k1_pay1 (k1_pay6 (iblk1 V c 0 t) (iblk1 V c 1 t) (iblk1 V c 2 t) (iblk1 V c 3 t))
      (k1_pay8 (accD V c (t.val - 1) (Nat.lt_of_le_of_lt (Nat.sub_le _ _) t.isLt))) := by
  obtain ⟨n, hn⟩ := t
  cases n with
  | zero => exact absurd (Nat.zero_mod _) h0
  | succ n => simp only [accD, if_neg h0]; rfl

end Cert.Kernel.Hand

end
-- ==== Proof.K.Reg0.lean ====
/-
  Region 0's body obligation: at every point of the grid the normalisation kernel, handed the input window's staging
  buffer at its block and the output window's at anything, leaves the input's as it was and the output's at the
  normalised block, the class invariant and the core's debts untouched.
-/
import proofs.«136886_j28595892256874_1_alg».proof.Proof.K.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's buffer when the body is called -/

/-- The input window is uncut and never idle, and the body leaves its block in place: so whether or not point \`t\`
    fetched it, its current staging buffer holds block \`t\` of the input array. -/
theorem inBuf0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The rectangle of every access: the whole 1024 × 1024 buffer -/

/-- Offsets \`(0, 0)\` are the zero offsets. -/
theorem zeroOff : (![0, 0] : Fin 2 → Nat) = fun _ => 0 := funext fun a => by fin_cases a <;> rfl

/-- The unit-stride rectangle at zero offsets of the buffer's own extents. -/
abbrev whole0 : Rect S1024x1024 := Rect.unit (s := S1024x1024) ![0, 0] S1024x1024.size inb_S1024x1024_S1024x1024_0_0

/-- One store through it covers the buffer: the rectangle tiles the extents. -/
theorem whole0_covers (p : Vec F S1024x1024 .bf16) (y : S1024x1024.Idx) :
    ∃ pc ∈ ([⟨whole0, p⟩] : List (View.Piece (Elt F) S1024x1024 .bf16)), y ∈ pc.1.set :=
  View.cover_of_tiled [⟨whole0, p⟩] S1024x1024.size (by rfl) y

/-- What the single whole-buffer store of the payload leaves, read back: the payload of the input block itself
    (a load through the whole rectangle reads the contents, one covering store leaves what it stored). -/
theorem stored0 (x : Vec F S1024x1024 .f32) :
    View.canon [(⟨whole0, k0_pay1 (View.ld x whole0)⟩ : View.Piece (Elt F) S1024x1024 .bf16)] = k0_pay1 x :=
  (View.canon_unit_zero zeroOff _ _).trans (congrArg k0_pay1 (View.ld_unit_zero (S := S1024x1024) zeroOff _ x))

/-! ## The kernel's triple -/

set_option maxHeartbeats 1000000 in
/-- The kernel on whole staging memrefs — the input's at contents \`x\`, the output's at anything — runs to a
    continuation that holds the input's unchanged and the output's at \`k0_pay1 x\`: two whole-buffer loads (the
    second one's value is dropped) and one whole-buffer store of the payload. -/
theorem kernel0_triple (c : Dev nD) (E : Set ℕ) (i : grid0.Coords)
    (a1 : Memref sig .tc .vmem S1024x1024 .f32) (h1 : a1.IsWhole)
    (a2 : Memref sig .tc .vmem S1024x1024 .bf16) (h2 : a2.IsWhole)
    (x : Vec F S1024x1024 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k0_pay1 x)) -∗ K ⟨⟩))
      ⊢ wp frame (wpE (defs₀ (F := F)) Variants.none c none) E (cc0__normalize_kernel i a1 h1 a2 h2) K := by
  simp only [cc0__normalize_kernel_eq_skeleton]; unfold cc0__normalize_kernel_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact (View.read_writes_eq_canon _ _ _ (whole0_covers _)).trans (stored0 _)

/-! ## The body obligation, at a generic point -/

/-- What the pipeline hands the body at point \`t\`, the two windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it wants back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at point \`t\`: the input's memref holds block \`t\` (\`inBuf0\`), so the kernel's triple applies at that block;
    the invariant and the debts do not depend on the point and pass through unread. -/
theorem body0_triple (c : Dev nD) (t : Fin cfg0.N) :
    pre0 V c t ⊢ wp frame (wpE (defs₀ (F := F)) Variants.none c none) Set.univ (bodyAt0 t) (fun _ => post0 V c t) := by
  unfold pre0 post0 bodyAt0
  simp only [inBuf0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (kernel0_triple c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact body0_triple V c t

end Cert.Kernel.Hand

end
-- ==== Proof.K.Reg1.lean ====
/-
  Region 1's body obligation. The body at grid point `t = 16 i + j` has two control cases, decided by whether the
  point starts a row block (`j = 0`): there it first stores the zero block over both accumulators; in both cases it
  then loads the four input blocks, adds the tile's masked row sums to the first accumulator and the tile's
  different-class row sums to the second. Each case's run is a triple found by symbolic execution of the body's
  skeleton, whose witness is the list of pieces each accumulator's buffer ends with; read back, those pieces are the
  recursion `accS` / `accD` of the proof data.
-/
import proofs.«136886_j28595892256874_1_alg».proof.Proof.K.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional, from the grid coordinates: the column-block coordinate is zero. -/
abbrev cond1 (i : grid1.Coords) : Prop :=
  (Scalar.cmpi .ne (Scalar.extui (Scalar.cmpi .eq (BitVec.ofNat 32 (i 1).val) 0#32)) 0#32) = 1#1

/-- It holds exactly at the points that start a row block — decided over the grid. -/
theorem hcond1 : ∀ t : Fin cfg1.N, cond1 (grid1.coords t) ↔ t.val % 16 = 0 :=
  (by decide +kernel : ∀ t : Fin grid1.N, cond1 (grid1.coords t) ↔ t.val % 16 = 0)

/-! ## The staging memrefs at a point -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)

/-- One staging buffer of each accumulator's window, through which what a case leaves is stated (the choice does not
    matter: pieces that cover read back the same over any contents). -/
abbrev VO1_4 : View sig .tc .vmem S1024 .f32 := (Memref.whole cc1_stg4_0 : Memref sig .tc .vmem S1024 .f32).view
abbrev VO1_5 : View sig .tc .vmem S1024 .f32 := (Memref.whole cc1_stg5_0 : Memref sig .tc .vmem S1024 .f32).view

/-- The rank-1 zero offset, as the function the whole-buffer lemmas ask. -/
theorem hz1 : (![0] : Fin 1 → Nat) = fun _ => 0 := funext fun a => by fin_cases a; rfl

/-! ## The body's run, case by case -/

set_option maxHeartbeats 1000000 in
/-- CASE A (the point starts a row block: the conditional is taken). On whole memrefs — the four inputs' at their
    blocks, the two accumulators' at anything — the body runs to the continuation holding the inputs' as they were and
    each accumulator's buffer with its pieces written (last first): the witness the run finds. -/
noncomputable def run1_A (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i)
    (x0 : Vec F S1024x1024 .bf16) (x1 : Vec F S512x1024 .bf16) (x2 : Vec F S1024 .i32) (x3 : Vec F S512 .i32) :
    Σ' (L4 : List (View.Piece (Elt F) S1024 .f32)), { L5 : List (View.Piece (Elt F) S1024 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ (∃ d, owns (c : Thread nD τ) a6 fullShare d) ∗ (∃ d, owns (c : Thread nD τ) a7 fullShare d)
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc1__pairwise_kernel i a2 h2 a3 h3 a4 h4 a5 h5 a6 h6 a7 h7) K } := by
  refine ⟨?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := h2.eq_unread hf0; obtain rfl := h3.eq_unread hf1; obtain rfl := h4.eq_unread hf2; obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact H5

set_option maxHeartbeats 1000000 in
/-- CASE B (a later point of a row block: the conditional is not taken). The accumulators' memrefs hold their running
    contents `xo4`, `xo5`, which the body reads before it stores over them. -/
noncomputable def run1_B (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i)
    (x0 : Vec F S1024x1024 .bf16) (x1 : Vec F S512x1024 .bf16) (x2 : Vec F S1024 .i32) (x3 : Vec F S512 .i32)
    (xo4 : Vec F S1024 .f32) (xo5 : Vec F S1024 .f32) :
    Σ' (L4 : List (View.Piece (Elt F) S1024 .f32)), { L5 : List (View.Piece (Elt F) S1024 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare xo4 ∗ owns (c : Thread nD τ) a7 fullShare xo5
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc1__pairwise_kernel i a2 h2 a3 h3 a4 h4 a5 h5 a6 h6 a7 h7) K } := by
  refine ⟨?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact H5

/-! ## What each case leaves in the accumulators' buffers -/

/-- Case A's pieces for the first accumulator tile its block (two whole-block stores), so they cover it. -/
theorem cover1_A_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i)
    (x0 : Vec F S1024x1024 .bf16) (x1 : Vec F S512x1024 .bf16) (x2 : Vec F S1024 .i32) (x3 : Vec F S512 .i32) (y : S1024.Idx) :
    ∃ pc ∈ (run1_A c i a2 h2 a3 h3 a4 h4 a5 h5 a6 h6 a7 h7 hc x0 x1 x2 x3).1, y ∈ pc.1.set :=
  View.cover_of_tiledL (run1_A c i a2 h2 a3 h3 a4 h4 a5 h5 a6 h6 a7 h7 hc x0 x1 x2 x3).1 S1024.size (by sl_kernel_rfl) y

/-- Case A's pieces for the second accumulator cover its block. -/
theorem cover1_A_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i)
    (x0 : Vec F S1024x1024 .bf16) (x1 : Vec F S512x1024 .bf16) (x2 : Vec F S1024 .i32) (x3 : Vec F S512 .i32) (y : S1024.Idx) :
    ∃ pc ∈ (run1_A c i a2 h2 a3 h3 a4 h4 a5 h5 a6 h6 a7 h7 hc x0 x1 x2 x3).2.1, y ∈ pc.1.set :=
  View.cover_of_tiledL (run1_A c i a2 h2 a3 h3 a4 h4 a5 h5 a6 h6 a7 h7 hc x0 x1 x2 x3).2.1 S1024.size (by sl_kernel_rfl) y

/-- Case B's one store over the first accumulator covers its block. -/
theorem cover1_B_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i)
    (x0 : Vec F S1024x1024 .bf16) (x1 : Vec F S512x1024 .bf16) (x2 : Vec F S1024 .i32) (x3 : Vec F S512 .i32)
    (xo4 : Vec F S1024 .f32) (xo5 : Vec F S1024 .f32) (y : S1024.Idx) :
    ∃ pc ∈ (run1_B c i a2 h2 a3 h3 a4 h4 a5 h5 a6 h6 a7 h7 hc x0 x1 x2 x3 xo4 xo5).1, y ∈ pc.1.set :=
  View.cover_of_tiledL (run1_B c i a2 h2 a3 h3 a4 h4 a5 h5 a6 h6 a7 h7 hc x0 x1 x2 x3 xo4 xo5).1 S1024.size (by sl_kernel_rfl) y

/-- Case B's one store over the second accumulator covers its block. -/
theorem cover1_B_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i)
    (x0 : Vec F S1024x1024 .bf16) (x1 : Vec F S512x1024 .bf16) (x2 : Vec F S1024 .i32) (x3 : Vec F S512 .i32)
    (xo4 : Vec F S1024 .f32) (xo5 : Vec F S1024 .f32) (y : S1024.Idx) :
    ∃ pc ∈ (run1_B c i a2 h2 a3 h3 a4 h4 a5 h5 a6 h6 a7 h7 hc x0 x1 x2 x3 xo4 xo5).2.1, y ∈ pc.1.set :=
  View.cover_of_tiledL (run1_B c i a2 h2 a3 h3 a4 h4 a5 h5 a6 h6 a7 h7 hc x0 x1 x2 x3 xo4 xo5).2.1 S1024.size (by sl_kernel_rfl) y

/-- The rank-2 zero offset, likewise. -/
theorem hz2 : (![0, 0] : Fin 2 → Nat) = fun _ => 0 := funext fun a => by fin_cases a <;> rfl

/-! ## The found pieces read back as values

Each accumulator's pieces, written over any contents of any whole memref's view, read back as the payload of the
last store: its loads of the inputs read the whole input blocks; its load of the accumulator reads, in case A, the
zero block the reset stored just before, in case B the running contents. -/

/-- Case A, first accumulator: the tile's masked row sums added to the zero block. -/
theorem val1_A_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i) (x0 : Vec F S1024x1024 .bf16) (x1 : Vec F S512x1024 .bf16) (x2 : Vec F S1024 .i32) (x3 : Vec F S512 .i32)
    (f : a6.view.ty.Contents (Elt F)) :
    a6.view.read (Elt F) (a6.view.writes (Elt F) f (run1_A c i a2 h2 a3 h3 a4 h4 a5 h5 a6 h6 a7 h7 hc x0 x1 x2 x3).1)
      = k1_pay7 i x0 x1 x2 x3 (k1_pay2 (F := F)) := by
  rw [View.read_writes_eq_canon _ _ _ (cover1_A_4 c i a2 h2 a3 h3 a4 h4 a5 h5 a6 h6 a7 h7 hc x0 x1 x2 x3)]
  unfold run1_A
  dsimp only
  sl_unfold_words
  rw [View.canon_cons_unit_zero (S := S1024) hz1, View.readCov_unit_zero (S := S1024) _ hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1]

/-- Case A, second accumulator: the tile's different-class row sums added to the zero block. -/
theorem val1_A_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i) (x0 : Vec F S1024x1024 .bf16) (x1 : Vec F S512x1024 .bf16) (x2 : Vec F S1024 .i32) (x3 : Vec F S512 .i32)
    (f : a7.view.ty.Contents (Elt F)) :
    a7.view.read (Elt F) (a7.view.writes (Elt F) f (run1_A c i a2 h2 a3 h3 a4 h4 a5 h5 a6 h6 a7 h7 hc x0 x1 x2 x3).2.1)
      = k1_pay1 (k1_pay6 x0 x1 x2 x3) (k1_pay8 (k1_pay3 (F := F))) := by
  rw [View.read_writes_eq_canon _ _ _ (cover1_A_5 c i a2 h2 a3 h3 a4 h4 a5 h5 a6 h6 a7 h7 hc x0 x1 x2 x3)]
  unfold run1_A
  dsimp only
  sl_unfold_words
  rw [View.canon_cons_unit_zero (S := S1024) hz1, View.readCov_unit_zero (S := S1024) _ hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1]

/-- Case B, first accumulator: the tile's masked row sums added to the running contents. -/
theorem val1_B_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i) (x0 : Vec F S1024x1024 .bf16) (x1 : Vec F S512x1024 .bf16) (x2 : Vec F S1024 .i32) (x3 : Vec F S512 .i32) (xo4 : Vec F S1024 .f32) (xo5 : Vec F S1024 .f32)
    (f : a6.view.ty.Contents (Elt F)) :
    a6.view.read (Elt F) (a6.view.writes (Elt F) f (run1_B c i a2 h2 a3 h3 a4 h4 a5 h5 a6 h6 a7 h7 hc x0 x1 x2 x3 xo4 xo5).1)
      = k1_pay7 i x0 x1 x2 x3 xo4 := by
  rw [View.read_writes_eq_canon _ _ _ (cover1_B_4 c i a2 h2 a3 h3 a4 h4 a5 h5 a6 h6 a7 h7 hc x0 x1 x2 x3 xo4 xo5)]
  unfold run1_B
  dsimp only
  sl_unfold_words
  rw [View.canon_unit_zero (S := S1024) hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1, h6.read_unread]

/-- Case B, second accumulator: the tile's different-class row sums added to the running contents. -/
theorem val1_B_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i) (x0 : Vec F S1024x1024 .bf16) (x1 : Vec F S512x1024 .bf16) (x2 : Vec F S1024 .i32) (x3 : Vec F S512 .i32) (xo4 : Vec F S1024 .f32) (xo5 : Vec F S1024 .f32)
    (f : a7.view.ty.Contents (Elt F)) :
    a7.view.read (Elt F) (a7.view.writes (Elt F) f (run1_B c i a2 h2 a3 h3 a4 h4 a5 h5 a6 h6 a7 h7 hc x0 x1 x2 x3 xo4 xo5).2.1)
      = k1_pay1 (k1_pay6 x0 x1 x2 x3) (k1_pay8 xo5) := by
  rw [View.read_writes_eq_canon _ _ _ (cover1_B_5 c i a2 h2 a3 h3 a4 h4 a5 h5 a6 h6 a7 h7 hc x0 x1 x2 x3 xo4 xo5)]
  unfold run1_B
  dsimp only
  sl_unfold_words
  rw [View.canon_unit_zero (S := S1024) hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1, h7.read_unread]

variable (V : (c : Dev nD) → (b : Ref sig .tc) → Buf (Elt F) ((c : Thread nD τ).loc b))

/-! ## What the windows' buffers hold when the body is called -/

/-- Each input's current staging buffer holds its block at every point, fetched there or not: unfetched, the window's
    block index has not moved since the point before, and the body leaves an input's block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point of a row block each accumulator's current staging buffer holds what the body left at the point
    before: the point is not the first, and the buffer was not written back between (a write-back happens only after
    the last point of a row block). -/
theorem before1_4_B (c : Dev nD) (t : Fin cfg1.N) (h0 : ¬t.val % 16 = 0) (d) :
    (dat1 V c).before 4 t d = accS V c (t.val - 1) (Nat.lt_of_le_of_lt (Nat.sub_le _ _) t.isLt) := by
  have hN : t.val < 128 := lt_of_lt_of_eq t.isLt (show cfg1.N = 128 from N_1)
  rw [Dat.before_out_kept _ 4 rfl t (by omega)
    (Bool.eq_false_iff.mpr fun h => by have := (flush1_4 _).mp h; dsimp only at this; omega)
    (fun _ => rfl) (fun _ _ => rfl)]
  rw [after1_4]
theorem before1_5_B (c : Dev nD) (t : Fin cfg1.N) (h0 : ¬t.val % 16 = 0) (d) :
    (dat1 V c).before 5 t d = accD V c (t.val - 1) (Nat.lt_of_le_of_lt (Nat.sub_le _ _) t.isLt) := by
  have hN : t.val < 128 := lt_of_lt_of_eq t.isLt (show cfg1.N = 128 from N_1)
  rw [Dat.before_out_kept _ 5 rfl t (by omega)
    (Bool.eq_false_iff.mpr fun h => by have := (flush1_5 _).mp h; dsimp only at this; omega)
    (fun _ => rfl) (fun _ _ => rfl)]
  rw [after1_5]

/-! ## The body obligation, at a generic point -/

/-- What the body is called with at point `t`: the invariant, what the core owes, and every window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point. The inputs' memrefs hold their blocks; the closed form of the condition says which case the
    point is in. At a point that starts a row block the accumulators' memrefs may hold anything, and what the run
    leaves is the recursion's restart; at a later point they hold what the point before left, and what the run leaves
    is the recursion's step. The invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 16 = 0
  · rw [accS_reset V c t h0, accD_reset V c t h0]
    iintro ⟨HΦ, Ho, ⟨%d0, H0⟩, ⟨%d1, H1⟩, ⟨%d2, H2⟩, ⟨%d3, H3⟩, ⟨%d4, H4⟩, ⟨%d5, H5⟩⟩
    iapply ((run1_A c (grid1.coords t) _ _ _ _ _ _ _ _ _ _ _ _ ((hcond1 t).mpr h0)
      (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact val1_A_4 c _ _ _ _ _ _ _ _ _ _ _ _ _ _ _ _ _ _ _
    · unfold owns; iexists _; isplitr
      swap; · iexact H5
      ipureintro; exact val1_A_5 c _ _ _ _ _ _ _ _ _ _ _ _ _ _ _ _ _ _ _
  · rw [accS_step V c t h0, accD_step V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply ((run1_B c (grid1.coords t) _ _ _ _ _ _ _ _ _ _ _ _ (fun h => h0 ((hcond1 t).mp h))
      (iblk1 V c 0 t) (iblk1 V c 1 t) (iblk1 V c 2 t) (iblk1 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact val1_B_4 c _ _ _ _ _ _ _ _ _ _ _ _ _ _ _ _ _ _ _ _ _
    · unfold owns; iexists _; isplitr
      swap; · iexact H5
      ipureintro; exact val1_B_5 c _ _ _ _ _ _ _ _ _ _ _ _ _ _ _ _ _ _ _ _ _

/-- The library's body obligation, at every point: the windows conjoined one by one. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Run.lean ====
/-
  The run of the whole program, at any float family. The proof data of both kernel regions at once (region 0 entered
  from the launch contents, region 1 from those with the normalised rows written), the contents each region leaves
  (`znArr`: the normalised rows; `rsArr`, `rdArr`: the two arrays of row sums), the two regions as segment records
  around the thread state "every unscoped buffer at the current valuation, the generator register at some state,
  nothing owed", and the launch: the result buffer ends at the host tail of `rsArr`, `rdArr` and the labels.

  Region 1 reads ONE array through two windows twice over (the normalised rows by row block and by column block, the
  labels likewise): at its entry each such array's full share is split in two halves, one per window, and rejoined
  at its exit, both windows ending at the contents they began with.
-/
import proofs.«136886_j28595892256874_1_alg».proof.Proof.K.RunCond
import proofs.«136886_j28595892256874_1_alg».proof.Proof.K.Reg0
import proofs.«136886_j28595892256874_1_alg».proof.Proof.K.Reg1
import Idealize.ShloMosaic.Lib.Pipeline.FrameBody
import Idealize.ShloMosaic.Lib.Pipeline.RegionsLoop
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- Region 0 is entered from the launch contents. -/
abbrev Vr0 : (c : Dev nD) → (b : Ref sig .tc) → Buf (Elt F) ((c : Thread nD τ).loc b) := fun c b => V0 m c b
/-- What region 0 leaves in its output array: the normalised rows. -/
def znArr (c : Dev nD) : Buf (Elt F) ((c : Thread nD τ).loc main_v0) := (dat0 (Vr0 m) c).arrAt 1 cfg0.N
/-- The buffers after region 0. -/
def W1 (c : Dev nD) : Valuation τ sig (Elt F) := Function.update (V0 m c) main_v0 (znArr m c)
/-- Region 1 is entered from them. -/
abbrev Vr1 : (c : Dev nD) → (b : Ref sig .tc) → Buf (Elt F) ((c : Thread nD τ).loc b) := fun c b => W1 m c b
/-- What region 1 leaves in its two output arrays: the same-class and the different-class row sums. -/
def rsArr (c : Dev nD) : Buf (Elt F) ((c : Thread nD τ).loc main_v1_0) := (dat1 (Vr1 m) c).arrAt 4 cfg1.N
def rdArr (c : Dev nD) : Buf (Elt F) ((c : Thread nD τ).loc main_v1_1) := (dat1 (Vr1 m) c).arrAt 5 cfg1.N
/-- The buffers after region 1. -/
def W2 (c : Dev nD) : Valuation τ sig (Elt F) :=
  Function.update (Function.update (W1 m c) main_v1_0 (rsArr m c)) main_v1_1 (rdArr m c)

/-- What the regions leave, as the family the host side's valuations are written over. -/
def outs : Outs (F := F) := fun J r c => if J = 1 then W1 m c r else W2 m c r

theorem outs_zn (c : Dev nD) : outs m 1 main_v0 c = znArr m c := by
  unfold outs; rw [if_pos rfl]; unfold W1; exact Function.update_self _ _ _
theorem outs_rs (c : Dev nD) : outs m 2 main_v1_0 c = rsArr m c := by
  unfold outs; rw [if_neg (by decide)]; unfold W2
  rw [Function.update_of_ne (StableHlo.devRef_ne_of_ne (by decide) : (Proc.devRef .tc main_v1_0 : DevRef τ sig) ≠ Proc.devRef .tc main_v1_1)]
  exact Function.update_self _ _ _
theorem outs_rd (c : Dev nD) : outs m 2 main_v1_1 c = rdArr m c := by
  unfold outs; rw [if_neg (by decide)]; unfold W2; exact Function.update_self _ _ _

/-- The host side's valuation after region 0 is `W1`, -/
theorem V1_eq (c : Dev nD) : V1 m (outs m) c = W1 m c := by
  show Function.update (V0 m c) _ (outs m 1 main_v0 c) = _
  rw [outs_zn]; rfl
/-- and after region 1 `W2`. -/
theorem V2_eq (c : Dev nD) : V2 m (outs m) c = W2 m c := by
  show Function.update (Function.update (V1 m (outs m) c) _ (outs m 2 main_v1_0 c)) _ (outs m 2 main_v1_1 c) = _
  rw [outs_rs, outs_rd, V1_eq]; rfl

/-! ## The proof data family and the thread state -/

/-- Both pipelines' proof data, each at its region's entry contents: a literal `match`. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The buffers after region 0, read at the TensorCore's references. -/
abbrev Vx1 : (c : Dev nD) → (b : Ref sig .tc) → Buf (Elt F) ((c : Thread nD τ).loc b) := fun c b => V1 m (outs m) c b
/-- The buffers after region 1, read at the TensorCore's references. -/
abbrev Vx2 : (c : Dev nD) → (b : Ref sig .tc) → Buf (Elt F) ((c : Thread nD τ).loc b) := fun c b => V2 m (outs m) c b

/-- At region 0's exit each of its arrays holds what the pipeline leaves: the input as entered, the output the
    normalised rows. -/
theorem hF0 (c : Dev nD) (w : Fin cfg0.W) : (pdats m 0 c).arrAt w cfg0.N = Vx1 m c (Pipeline.arrRef spec0 w) := by
  match w with
  | ⟨0, _⟩ =>
    exact (((pdats m 0 c).arrAt_in 0 rfl _).trans (A_eq0 (Vr0 m) c 0)).trans (V1_of m (outs m) c main_arg1 (by decide)).symm
  | ⟨1, _⟩ =>
    show znArr m c = V1 m (outs m) c main_v0
    rw [V1_eq]; unfold W1; rw [Function.update_self]
/-- Every other buffer is as region 0 found it. -/
theorem hrest0 (c : Dev nD) : ∀ b, b ∉ Finset.univ.image (Pipeline.arrRef spec0) → Vx1 m c b = Vr0 m c b :=
  fun b hb => V1_of m (outs m) c b fun h => hb (Finset.mem_image.mpr ⟨1, Finset.mem_univ _, (List.mem_singleton.mp h).symm⟩)

/-! ## Region 1's arrays among the unscoped buffers

Region 1's six windows stand on four buffers: the normalised rows (windows 0 and 1), the labels (windows 2 and 3) and the
two outputs. The buffers whole at the full share ARE the windows' arrays at the proof data's shares — the two read
twice split in halves, one per window —, in both directions. -/

/-- The four buffers behind region 1's six windows. -/
theorem img1 : Finset.univ.image (Pipeline.arrRef spec1) = ({main_v0, main_arg3, main_v1_0, main_v1_1} : Finset (Ref sig .tc)) := by decide

/-- ENTRY: the buffers at contents `V` make the windows' arrays at contents `G` that read `V`. -/
theorem arrays1_of_bufs (Vd : (c : Dev nD) → (b : Ref sig .tc) → Buf (Elt F) ((c : Thread nD τ).loc b)) (c : Dev nD)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs spec1 c V : sProp 𝕄) ⊢ (dat1 Vd c).arrays G := by
  unfold Pipeline.Dat.arrays Pipeline.arrBufs
  rw [bigSep_W1, img1, bigSep_insert (by decide), bigSep_insert (by decide), bigSep_insert (by decide), bigSep_singleton]
  have e (w : Fin cfg1.W) (q : PosShare TreeShare) (hq : (dat1 Vd c).share w = q) :
      (View.loc c.tc (cfg1.win w).arr.view ↦[(cfg1.win w).arr.view.set]{(dat1 Vd c).share w} G w : sProp 𝕄)
        = (c.tc.loc (Pipeline.arrRef spec1 w) ↦{q} V (Pipeline.arrRef spec1 w)) := by
    rw [(arr_whole1 w).set_eq_univ, hq, hG w]
  rw [e 0 fullShare.left rfl, e 1 fullShare.right rfl, e 2 fullShare.left rfl, e 3 fullShare.right rfl, e 4 fullShare rfl, e 5 fullShare rfl]
  show (iprop((c.tc.loc main_v0 ↦{fullShare} V main_v0) ∗ (c.tc.loc main_arg3 ↦{fullShare} V main_arg3) ∗ (c.tc.loc main_v1_0 ↦{fullShare} V main_v1_0) ∗ (c.tc.loc main_v1_1 ↦{fullShare} V main_v1_1)) : sProp 𝕄) ⊢ _
  iintro ⟨H0, H3, H4, H5⟩
  ihave H0 := (pointsTo_share (PosShare.mem_left_op_right fullShare)).1 $$ H0
  ihave H3 := (pointsTo_share (PosShare.mem_left_op_right fullShare)).1 $$ H3
  icases H0 with ⟨H0l, H0r⟩
  icases H3 with ⟨H3l, H3r⟩
  isplitl [H0l]; · iexact H0l
  isplitl [H0r]; · iexact H0r
  isplitl [H3l]; · iexact H3l
  isplitl [H3r]; · iexact H3r
  isplitl [H4]; · iexact H4
  iexact H5

/-- EXIT: and back. -/
theorem bufs_of_arrays1 (Vd : (c : Dev nD) → (b : Ref sig .tc) → Buf (Elt F) ((c : Thread nD τ).loc b)) (c : Dev nD)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    ((dat1 Vd c).arrays G : sProp 𝕄) ⊢ Pipeline.arrBufs spec1 c V := by
  unfold Pipeline.Dat.arrays Pipeline.arrBufs
  rw [bigSep_W1, img1, bigSep_insert (by decide), bigSep_insert (by decide), bigSep_insert (by decide), bigSep_singleton]
  have e (w : Fin cfg1.W) (q : PosShare TreeShare) (hq : (dat1 Vd c).share w = q) :
      (View.loc c.tc (cfg1.win w).arr.view ↦[(cfg1.win w).arr.view.set]{(dat1 Vd c).share w} G w : sProp 𝕄)
        = (c.tc.loc (Pipeline.arrRef spec1 w) ↦{q} V (Pipeline.arrRef spec1 w)) := by
    rw [(arr_whole1 w).set_eq_univ, hq, hG w]
  rw [e 0 fullShare.left rfl, e 1 fullShare.right rfl, e 2 fullShare.left rfl, e 3 fullShare.right rfl, e 4 fullShare rfl, e 5 fullShare rfl]
  show _ ⊢ (iprop((c.tc.loc main_v0 ↦{fullShare} V main_v0) ∗ (c.tc.loc main_arg3 ↦{fullShare} V main_arg3) ∗ (c.tc.loc main_v1_0 ↦{fullShare} V main_v1_0) ∗ (c.tc.loc main_v1_1 ↦{fullShare} V main_v1_1)) : sProp 𝕄)
  iintro ⟨H0l, H0r, H3l, H3r, H4, H5⟩
  isplitl [H0l H0r]
  · iapply (pointsTo_share (PosShare.mem_left_op_right fullShare)).2
    isplitl [H0l]; · iexact H0l
    iexact H0r
  isplitl [H3l H3r]
  · iapply (pointsTo_share (PosShare.mem_left_op_right fullShare)).2
    isplitl [H3l]; · iexact H3l
    iexact H3r
  isplitl [H4]; · iexact H4
  iexact H5

/-! ## The regions as segments -/

set_option backward.isDefEq.respectTransparency.types false in
/-- REGION 0 over the thread state: entered from every unscoped buffer at the launch contents, left at those with
    the normalised rows written. Its arrays are split out of the unscoped buffers and put back at the exit contents;
    the generator register goes into the invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vx1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: the four inputs as entered, the outputs
    the two arrays of row sums. -/
theorem hF1 (c : Dev nD) (w : Fin cfg1.W) : (pdats m 1 c).arrAt w cfg1.N = Vx2 m c (Pipeline.arrRef spec1 w) := by
  have hv0 : Vr1 m c main_v0 = Vx2 m c main_v0 :=
    ((V2_of m (outs m) c main_v0 (by decide)).trans (congrFun (V1_eq m c) _)).symm
  have ha3 : Vr1 m c main_arg3 = Vx2 m c main_arg3 :=
    ((V2_of m (outs m) c main_arg3 (by decide)).trans (congrFun (V1_eq m c) _)).symm
  match w with
  | ⟨0, _⟩ => exact (((pdats m 1 c).arrAt_in 0 rfl _).trans (A_eq1 (Vr1 m) c 0)).trans hv0
  | ⟨1, _⟩ => exact (((pdats m 1 c).arrAt_in 1 rfl _).trans (A_eq1 (Vr1 m) c 1)).trans hv0
  | ⟨2, _⟩ => exact (((pdats m 1 c).arrAt_in 2 rfl _).trans (A_eq1 (Vr1 m) c 2)).trans ha3
  | ⟨3, _⟩ => exact (((pdats m 1 c).arrAt_in 3 rfl _).trans (A_eq1 (Vr1 m) c 3)).trans ha3
  | ⟨4, _⟩ =>
    show rsArr m c = V2 m (outs m) c main_v1_0
    rw [V2_eq]; unfold W2
    rw [Function.update_of_ne (StableHlo.devRef_ne_of_ne (by decide) : (Proc.devRef .tc main_v1_0 : DevRef τ sig) ≠ Proc.devRef .tc main_v1_1),
      Function.update_self]
  | ⟨5, _⟩ =>
    show rdArr m c = V2 m (outs m) c main_v1_1
    rw [V2_eq]; unfold W2; rw [Function.update_self]
/-- Every other buffer is as region 1 found it. -/
theorem hrest1 (c : Dev nD) : ∀ b, b ∉ Finset.univ.image (Pipeline.arrRef spec1) → Vx2 m c b = Vx1 m c b :=
  fun b hb => V2_of m (outs m) c b fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩)

set_option backward.isDefEq.respectTransparency.types false in
/-- REGION 1 over the thread state: entered from every unscoped buffer at the contents region 0 left, left at those
    with the two arrays of row sums written. At entry the two arrays read twice are split in halves among their
    windows; at exit the halves are rejoined, both windows of a pair ending at the contents they began with. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vx1 m c)
  hentry c := by
    rw [Pipeline.ownSems0_none]
    have hsplit : (StableHlo.held (c : Thread nD τ) (Pipeline.ucRefs τ sig) (V1 m (outs m) c) : sProp 𝕄)
        ⊢ iprop((pdats m 1 c).arrays ((pdats m 1 c).arrAt · 0) ∗ Pipeline.unscopedRest spec1 c (Vx1 m c)) := by
      rw [← Pipeline.unscopedBufs_held c (V1 m (outs m) c),
        Pipeline.unscopedBufs_split₀ (Pipeline.pin (pcfgs (F := F)) adm) (1 : Fin 2) winFacts₀1.arr_unscoped c (Vx1 m c)]
      exact sep_mono (arrays1_of_bufs (Vr1 m) c (Vx1 m c) _ fun w => by
        show Vr1 m c _ = V1 m (outs m) c _
        rw [V1_eq]) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vx1 m c))
        ⊢ (StableHlo.held (c : Thread nD τ) (Pipeline.ucRefs τ sig) (V2 m (outs m) c) : sProp 𝕄) := by
      rw [← Pipeline.unscopedBufs_held c (V2 m (outs m) c),
        Pipeline.unscopedBufs_split₀ (Pipeline.pin (pcfgs (F := F)) adm) (1 : Fin 2) winFacts₀1.arr_unscoped c (Vx2 m c)]
      refine sep_mono (bufs_of_arrays1 (Vr1 m) c (Vx2 m c) _ (hF1 m c)) (Entails.of_eq ?_)
      unfold Pipeline.unscopedRest
      exact bigSep_congr fun b hb => by rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN: every weakly fair execution of @main terminates, the result buffer ends at the host tail's value of what
    the regions leave, the arguments end unchanged. -/
theorem run_main : θ_run defs (onTc (τ := τ) (main (F := F))) ⟨m, fun _ => 0, ρ⟩ (fun r => ∀ c : Dev nD,
      r.2.mem ((c.tc : Thread nD τ).loc main_v20) = V9 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.Kernel.Hand

end
-- ==== Proof.KI.Data.lean ====
/-
  The proof data of the two kernel regions, at any float family `F` and at a PARAMETER `V`: the TensorCore's
  buffer contents when the region is entered.

  Region 0 (row normalisation, grid of 8 row blocks of 1024 rows): window 0 reads block `t` of the input, window 1
  receives `z / max (sqrt (sum z²), eps)` of that block, written back at every point.

  Region 1 (pairwise sums, grid 8 × 16, point `t = 16 i + j`): windows 0 and 2 read row block `i` of the normalised
  rows and of the labels, windows 1 and 3 read column block `j` of the same two arrays; windows 4 and 5 are the two
  accumulators of row block `i`. At `j = 0` the body resets both to zero and adds tile `(i, 0)`'s row sums; at
  `j > 0` it adds tile `(i, j)`'s row sums to what point `t - 1` left. So what the accumulators hold after point
  `t` is a recursion on the point (`accS`, `accD`), restarted at every multiple of 16.
-/
import proofs.«136886_j28595892256874_1_alg».proof.Proof.Gen.KernelIdeal.Launch
import proofs.«136886_j28595892256874_1_alg».proof.Proof.Gen.KernelIdeal.Skeleton
import proofs.«136886_j28595892256874_1_alg».proof.Proof.Gen.KernelIdeal.Points
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat)

variable {F : FTy → Type} [FloatOps F]
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: the input's buffer keeps its block, the output's holds the normalised block. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => k0_pay1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = k0_pay1 (iblk0 V c 0 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The zero block both accumulators are reset to. -/
abbrev zero1 : Vec F S1024 .f32 := k1_pay2 (F := F)

/-- The same-class accumulator after point `n`: tile `n`'s masked row sums added to zero at a point that starts a row
    block, to what the point before left otherwise. -/
def accS (c : Dev nD) : (n : ℕ) → n < cfg1.N → Vec F S1024 .f32
  | 0, hn => k1_pay7 (grid1.coords ⟨0, hn⟩) (iblk1 V c 0 ⟨0, hn⟩) (iblk1 V c 1 ⟨0, hn⟩) (iblk1 V c 2 ⟨0, hn⟩) (iblk1 V c 3 ⟨0, hn⟩) (k1_pay2 (F := F))
  | n + 1, hn =>
    k1_pay7 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 16 = 0 then k1_pay2 (F := F) else accS c n (Nat.lt_of_succ_lt hn))

/-- The different-class accumulator after point `n`, likewise. -/
def accD (c : Dev nD) : (n : ℕ) → n < cfg1.N → Vec F S1024 .f32
  | 0, hn => k1_pay1 (k1_pay6 (iblk1 V c 0 ⟨0, hn⟩) (iblk1 V c 1 ⟨0, hn⟩) (iblk1 V c 2 ⟨0, hn⟩) (iblk1 V c 3 ⟨0, hn⟩)) (k1_pay8 (k1_pay3 (F := F)))
  | n + 1, hn =>
    k1_pay1 (k1_pay6 (iblk1 V c 0 ⟨n + 1, hn⟩) (iblk1 V c 1 ⟨n + 1, hn⟩) (iblk1 V c 2 ⟨n + 1, hn⟩) (iblk1 V c 3 ⟨n + 1, hn⟩))
      (k1_pay8 (if (n + 1) % 16 = 0 then k1_pay3 (F := F) else accD c n (Nat.lt_of_succ_lt hn)))

/-- Region 1's proof data. Windows 0 and 1 read ONE array (the normalised rows), windows 2 and 3 ONE array (the labels):
    each pair holds its array at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => accS V c t.val t.isLt
    | ⟨5, _⟩ => accD V c t.val t.isLt
  Φ _ := Pipeline.ΦA spec1 c
  q w := match w with
    | ⟨0, _⟩ => fullShare.left
    | ⟨1, _⟩ => fullShare.right
    | ⟨2, _⟩ => fullShare.left
    | ⟨3, _⟩ => fullShare.right
    | ⟨4, _⟩ => fullShare
    | ⟨5, _⟩ => fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = accS V c t.val t.isLt := by dsimp only [dat1]
theorem after1_5 (c : Dev nD) (t : Fin cfg1.N) : (dat1 V c).after 5 t = accD V c t.val t.isLt := by dsimp only [dat1]

/-- The accumulators at a point that starts a row block. -/
theorem accS_reset (c : Dev nD) (t : Fin cfg1.N) (h0 : t.val % 16 = 0) :
    accS V c t.val t.isLt = k1_pay7 (grid1.coords t) (iblk1 V c 0 t) (iblk1 V c 1 t) (iblk1 V c 2 t) (iblk1 V c 3 t) (k1_pay2 (F := F)) := by
  obtain ⟨n, hn⟩ := t
  cases n with
  | zero => rfl
  | succ n => simp only [accS, if_pos h0]
theorem accD_reset (c : Dev nD) (t : Fin cfg1.N) (h0 : t.val % 16 = 0) :
    accD V c t.val t.isLt = k1_pay1 (k1_pay6 (iblk1 V c 0 t) (iblk1 V c 1 t) (iblk1 V c 2 t) (iblk1 V c 3 t)) (k1_pay8 (k1_pay3 (F := F))) := by
  obtain ⟨n, hn⟩ := t
  cases n with
  | zero => rfl
  | succ n => simp only [accD, if_pos h0]

/-- The accumulators at a later point of a row block: over what the point before left. -/
theorem accS_step (c : Dev nD) (t : Fin cfg1.N) (h0 : ¬t.val % 16 = 0) :
    accS V c t.val t.isLt = k1_pay7 (grid1.coords t) (iblk1 V c 0 t) (iblk1 V c 1 t) (iblk1 V c 2 t) (iblk1 V c 3 t)
      (accS V c (t.val - 1) (Nat.lt_of_le_of_lt (Nat.sub_le _ _) t.isLt)) := by
  obtain ⟨n, hn⟩ := t
  cases n with
  | zero => exact absurd (Nat.zero_mod _) h0
  | succ n => simp only [accS, if_neg h0]; rfl
theorem accD_step (c : Dev nD) (t : Fin cfg1.N) (h0 : ¬t.val % 16 = 0) :
    accD V c t.val t.isLt = k1_pay1 (k1_pay6 (iblk1 V c 0 t) (iblk1 V c 1 t) (iblk1 V c 2 t) (iblk1 V c 3 t))
      (k1_pay8 (accD V c (t.val - 1) (Nat.lt_of_le_of_lt (Nat.sub_le _ _) t.isLt))) := by
  obtain ⟨n, hn⟩ := t
  cases n with
  | zero => exact absurd (Nat.zero_mod _) h0
  | succ n => simp only [accD, if_neg h0]; rfl

end Cert.KernelIdeal.Hand

end
-- ==== Proof.KI.Reg0.lean ====
/-
  Region 0's body obligation: at every point of the grid the normalisation kernel, handed the input window's staging
  buffer at its block and the output window's at anything, leaves the input's as it was and the output's at the
  normalised block, the class invariant and the core's debts untouched.
-/
import proofs.«136886_j28595892256874_1_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The input window's buffer when the body is called -/

/-- The input window is uncut and never idle, and the body leaves its block in place: so whether or not point \`t\`
    fetched it, its current staging buffer holds block \`t\` of the input array. -/
theorem inBuf0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-! ## The rectangle of every access: the whole 1024 × 1024 buffer -/

/-- Offsets \`(0, 0)\` are the zero offsets. -/
theorem zeroOff : (![0, 0] : Fin 2 → Nat) = fun _ => 0 := funext fun a => by fin_cases a <;> rfl

/-- The unit-stride rectangle at zero offsets of the buffer's own extents. -/
abbrev whole0 : Rect S1024x1024 := Rect.unit (s := S1024x1024) ![0, 0] S1024x1024.size inb_S1024x1024_S1024x1024_0_0

/-- One store through it covers the buffer: the rectangle tiles the extents. -/
theorem whole0_covers (p : Vec F S1024x1024 .bf16) (y : S1024x1024.Idx) :
    ∃ pc ∈ ([⟨whole0, p⟩] : List (View.Piece (Elt F) S1024x1024 .bf16)), y ∈ pc.1.set :=
  View.cover_of_tiled [⟨whole0, p⟩] S1024x1024.size (by rfl) y

/-- What the single whole-buffer store of the payload leaves, read back: the payload of the input block itself
    (a load through the whole rectangle reads the contents, one covering store leaves what it stored). -/
theorem stored0 (x : Vec F S1024x1024 .f32) :
    View.canon [(⟨whole0, k0_pay1 (View.ld x whole0)⟩ : View.Piece (Elt F) S1024x1024 .bf16)] = k0_pay1 x :=
  (View.canon_unit_zero zeroOff _ _).trans (congrArg k0_pay1 (View.ld_unit_zero (S := S1024x1024) zeroOff _ x))

/-! ## The kernel's triple -/

set_option maxHeartbeats 1000000 in
/-- The kernel on whole staging memrefs — the input's at contents \`x\`, the output's at anything — runs to a
    continuation that holds the input's unchanged and the output's at \`k0_pay1 x\`: two whole-buffer loads (the
    second one's value is dropped) and one whole-buffer store of the payload. -/
theorem kernel0_triple (c : Dev nD) (E : Set ℕ) (i : grid0.Coords)
    (a1 : Memref sig .tc .vmem S1024x1024 .f32) (h1 : a1.IsWhole)
    (a2 : Memref sig .tc .vmem S1024x1024 .bf16) (h2 : a2.IsWhole)
    (x : Vec F S1024x1024 .f32) (K : PUnit → sProp 𝕄) :
    iprop(owns (c : Thread nD τ) a1 fullShare x ∗ (∃ d, owns (c : Thread nD τ) a2 fullShare d)
        ∗ (iprop(owns (c : Thread nD τ) a1 fullShare x ∗ owns (c : Thread nD τ) a2 fullShare (k0_pay1 x)) -∗ K ⟨⟩))
      ⊢ wp frame (wpE (defs₀ (F := F)) Variants.none c none) E (cc0__normalize_kernel i a1 h1 a2 h2) K := by
  simp only [cc0__normalize_kernel_eq_skeleton]; unfold cc0__normalize_kernel_skel
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact (View.read_writes_eq_canon _ _ _ (whole0_covers _)).trans (stored0 _)

/-! ## The body obligation, at a generic point -/

/-- What the pipeline hands the body at point \`t\`, the two windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it wants back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at point \`t\`: the input's memref holds block \`t\` (\`inBuf0\`), so the kernel's triple applies at that block;
    the invariant and the debts do not depend on the point and pass through unread. -/
theorem body0_triple (c : Dev nD) (t : Fin cfg0.N) :
    pre0 V c t ⊢ wp frame (wpE (defs₀ (F := F)) Variants.none c none) Set.univ (bodyAt0 t) (fun _ => post0 V c t) := by
  unfold pre0 post0 bodyAt0
  simp only [inBuf0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (kernel0_triple c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact body0_triple V c t

end Cert.KernelIdeal.Hand

end
-- ==== Proof.KI.Reg1.lean ====
/-
  Region 1's body obligation. The body at grid point `t = 16 i + j` has two control cases, decided by whether the
  point starts a row block (`j = 0`): there it first stores the zero block over both accumulators; in both cases it
  then loads the four input blocks, adds the tile's masked row sums to the first accumulator and the tile's
  different-class row sums to the second. Each case's run is a triple found by symbolic execution of the body's
  skeleton, whose witness is the list of pieces each accumulator's buffer ends with; read back, those pieces are the
  recursion `accS` / `accD` of the proof data.
-/
import proofs.«136886_j28595892256874_1_alg».proof.Proof.KI.Data
import Idealize.ShloMosaic.Lib.Pipeline.FrameBody
import Idealize.ShloMosaic.Lib.Pipeline.Value
import Idealize.ShloMosaic.Lib.Ring
import Idealize.ShloMosaic.Lib.Tactic

set_option maxRecDepth 16384

noncomputable section

open scoped BigOperators

namespace Cert.KernelIdeal.Hand
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch condition -/

/-- The condition of the body's one conditional, from the grid coordinates: the column-block coordinate is zero. -/
abbrev cond1 (i : grid1.Coords) : Prop :=
  (Scalar.cmpi .ne (Scalar.extui (Scalar.cmpi .eq (BitVec.ofNat 32 (i 1).val) 0#32)) 0#32) = 1#1

/-- It holds exactly at the points that start a row block — decided over the grid. -/
theorem hcond1 : ∀ t : Fin cfg1.N, cond1 (grid1.coords t) ↔ t.val % 16 = 0 :=
  (by decide +kernel : ∀ t : Fin grid1.N, cond1 (grid1.coords t) ↔ t.val % 16 = 0)

/-! ## The staging memrefs at a point -/

abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024 .f32 := win1_5.stage (cfg1.slots t 5)
abbrev hs1_5 (t : Fin cfg1.N) : (ms1_5 t).IsWhole := hstage1_5 ((cfg1.slots t 5).cast nbuf1_5)

/-- One staging buffer of each accumulator's window, through which what a case leaves is stated (the choice does not
    matter: pieces that cover read back the same over any contents). -/
abbrev VO1_4 : View sig .tc .vmem S1024 .f32 := (Memref.whole cc1_stg4_0 : Memref sig .tc .vmem S1024 .f32).view
abbrev VO1_5 : View sig .tc .vmem S1024 .f32 := (Memref.whole cc1_stg5_0 : Memref sig .tc .vmem S1024 .f32).view

/-- The rank-1 zero offset, as the function the whole-buffer lemmas ask. -/
theorem hz1 : (![0] : Fin 1 → Nat) = fun _ => 0 := funext fun a => by fin_cases a; rfl

/-! ## The body's run, case by case -/

set_option maxHeartbeats 1000000 in
/-- CASE A (the point starts a row block: the conditional is taken). On whole memrefs — the four inputs' at their
    blocks, the two accumulators' at anything — the body runs to the continuation holding the inputs' as they were and
    each accumulator's buffer with its pieces written (last first): the witness the run finds. -/
noncomputable def run1_A (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i)
    (x0 : Vec F S1024x1024 .bf16) (x1 : Vec F S512x1024 .bf16) (x2 : Vec F S1024 .i32) (x3 : Vec F S512 .i32) :
    Σ' (L4 : List (View.Piece (Elt F) S1024 .f32)), { L5 : List (View.Piece (Elt F) S1024 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ (∃ d, owns (c : Thread nD τ) a6 fullShare d) ∗ (∃ d, owns (c : Thread nD τ) a7 fullShare d)
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc1__pairwise_kernel i a2 h2 a3 h3 a4 h4 a5 h5 a6 h6 a7 h7) K } := by
  refine ⟨?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
    obtain rfl := h2.eq_unread hf0; obtain rfl := h3.eq_unread hf1; obtain rfl := h4.eq_unread hf2; obtain rfl := h5.eq_unread hf3
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact H5

set_option maxHeartbeats 1000000 in
/-- CASE B (a later point of a row block: the conditional is not taken). The accumulators' memrefs hold their running
    contents `xo4`, `xo5`, which the body reads before it stores over them. -/
noncomputable def run1_B (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i)
    (x0 : Vec F S1024x1024 .bf16) (x1 : Vec F S512x1024 .bf16) (x2 : Vec F S1024 .i32) (x3 : Vec F S512 .i32)
    (xo4 : Vec F S1024 .f32) (xo5 : Vec F S1024 .f32) :
    Σ' (L4 : List (View.Piece (Elt F) S1024 .f32)), { L5 : List (View.Piece (Elt F) S1024 .f32) //
      ∀ (E : Set ℕ) (K : PUnit → sProp 𝕄),
        iprop(owns (c : Thread nD τ) a2 fullShare x0 ∗ owns (c : Thread nD τ) a3 fullShare x1
            ∗ owns (c : Thread nD τ) a4 fullShare x2 ∗ owns (c : Thread nD τ) a5 fullShare x3
            ∗ owns (c : Thread nD τ) a6 fullShare xo4 ∗ owns (c : Thread nD τ) a7 fullShare xo5
            ∗ (iprop(owns (c : Thread nD τ) a2 fullShare x0 ∗ owns (c : Thread nD τ) a3 fullShare x1
                ∗ owns (c : Thread nD τ) a4 fullShare x2 ∗ owns (c : Thread nD τ) a5 fullShare x3
                ∗ (∃ f, a6.view.loc (c : Thread nD τ) ↦[a6.view.set]{fullShare} a6.view.writes (Elt F) f L4)
                ∗ (∃ f, a7.view.loc (c : Thread nD τ) ↦[a7.view.set]{fullShare} a7.view.writes (Elt F) f L5)) -∗ K ⟨⟩))
          ⊢ wp frame (wpE (defs₀ (F := F)) Variants.none c none) E (cc1__pairwise_kernel i a2 h2 a3 h3 a4 h4 a5 h5 a6 h6 a7 h7) K } := by
  refine ⟨?_, ?_, fun E K => ?run⟩
  case run =>
    simp only [cc1__pairwise_kernel_eq_skeleton]; unfold cc1__pairwise_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5
    sl_exec (disch := first | exact hc)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]; · iexists _; iexact H4
    iexists _; iexact H5

/-! ## What each case leaves in the accumulators' buffers -/

/-- Case A's pieces for the first accumulator tile its block (two whole-block stores), so they cover it. -/
theorem cover1_A_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i)
    (x0 : Vec F S1024x1024 .bf16) (x1 : Vec F S512x1024 .bf16) (x2 : Vec F S1024 .i32) (x3 : Vec F S512 .i32) (y : S1024.Idx) :
    ∃ pc ∈ (run1_A c i a2 h2 a3 h3 a4 h4 a5 h5 a6 h6 a7 h7 hc x0 x1 x2 x3).1, y ∈ pc.1.set :=
  View.cover_of_tiledL (run1_A c i a2 h2 a3 h3 a4 h4 a5 h5 a6 h6 a7 h7 hc x0 x1 x2 x3).1 S1024.size (by sl_kernel_rfl) y

/-- Case A's pieces for the second accumulator cover its block. -/
theorem cover1_A_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i)
    (x0 : Vec F S1024x1024 .bf16) (x1 : Vec F S512x1024 .bf16) (x2 : Vec F S1024 .i32) (x3 : Vec F S512 .i32) (y : S1024.Idx) :
    ∃ pc ∈ (run1_A c i a2 h2 a3 h3 a4 h4 a5 h5 a6 h6 a7 h7 hc x0 x1 x2 x3).2.1, y ∈ pc.1.set :=
  View.cover_of_tiledL (run1_A c i a2 h2 a3 h3 a4 h4 a5 h5 a6 h6 a7 h7 hc x0 x1 x2 x3).2.1 S1024.size (by sl_kernel_rfl) y

/-- Case B's one store over the first accumulator covers its block. -/
theorem cover1_B_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i)
    (x0 : Vec F S1024x1024 .bf16) (x1 : Vec F S512x1024 .bf16) (x2 : Vec F S1024 .i32) (x3 : Vec F S512 .i32)
    (xo4 : Vec F S1024 .f32) (xo5 : Vec F S1024 .f32) (y : S1024.Idx) :
    ∃ pc ∈ (run1_B c i a2 h2 a3 h3 a4 h4 a5 h5 a6 h6 a7 h7 hc x0 x1 x2 x3 xo4 xo5).1, y ∈ pc.1.set :=
  View.cover_of_tiledL (run1_B c i a2 h2 a3 h3 a4 h4 a5 h5 a6 h6 a7 h7 hc x0 x1 x2 x3 xo4 xo5).1 S1024.size (by sl_kernel_rfl) y

/-- Case B's one store over the second accumulator covers its block. -/
theorem cover1_B_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i)
    (x0 : Vec F S1024x1024 .bf16) (x1 : Vec F S512x1024 .bf16) (x2 : Vec F S1024 .i32) (x3 : Vec F S512 .i32)
    (xo4 : Vec F S1024 .f32) (xo5 : Vec F S1024 .f32) (y : S1024.Idx) :
    ∃ pc ∈ (run1_B c i a2 h2 a3 h3 a4 h4 a5 h5 a6 h6 a7 h7 hc x0 x1 x2 x3 xo4 xo5).2.1, y ∈ pc.1.set :=
  View.cover_of_tiledL (run1_B c i a2 h2 a3 h3 a4 h4 a5 h5 a6 h6 a7 h7 hc x0 x1 x2 x3 xo4 xo5).2.1 S1024.size (by sl_kernel_rfl) y

/-- The rank-2 zero offset, likewise. -/
theorem hz2 : (![0, 0] : Fin 2 → Nat) = fun _ => 0 := funext fun a => by fin_cases a <;> rfl

/-! ## The found pieces read back as values

Each accumulator's pieces, written over any contents of any whole memref's view, read back as the payload of the
last store: its loads of the inputs read the whole input blocks; its load of the accumulator reads, in case A, the
zero block the reset stored just before, in case B the running contents. -/

/-- Case A, first accumulator: the tile's masked row sums added to the zero block. -/
theorem val1_A_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i) (x0 : Vec F S1024x1024 .bf16) (x1 : Vec F S512x1024 .bf16) (x2 : Vec F S1024 .i32) (x3 : Vec F S512 .i32)
    (f : a6.view.ty.Contents (Elt F)) :
    a6.view.read (Elt F) (a6.view.writes (Elt F) f (run1_A c i a2 h2 a3 h3 a4 h4 a5 h5 a6 h6 a7 h7 hc x0 x1 x2 x3).1)
      = k1_pay7 i x0 x1 x2 x3 (k1_pay2 (F := F)) := by
  rw [View.read_writes_eq_canon _ _ _ (cover1_A_4 c i a2 h2 a3 h3 a4 h4 a5 h5 a6 h6 a7 h7 hc x0 x1 x2 x3)]
  unfold run1_A
  dsimp only
  sl_unfold_words
  rw [View.canon_cons_unit_zero (S := S1024) hz1, View.readCov_unit_zero (S := S1024) _ hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1]

/-- Case A, second accumulator: the tile's different-class row sums added to the zero block. -/
theorem val1_A_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : cond1 i) (x0 : Vec F S1024x1024 .bf16) (x1 : Vec F S512x1024 .bf16) (x2 : Vec F S1024 .i32) (x3 : Vec F S512 .i32)
    (f : a7.view.ty.Contents (Elt F)) :
    a7.view.read (Elt F) (a7.view.writes (Elt F) f (run1_A c i a2 h2 a3 h3 a4 h4 a5 h5 a6 h6 a7 h7 hc x0 x1 x2 x3).2.1)
      = k1_pay1 (k1_pay6 x0 x1 x2 x3) (k1_pay8 (k1_pay3 (F := F))) := by
  rw [View.read_writes_eq_canon _ _ _ (cover1_A_5 c i a2 h2 a3 h3 a4 h4 a5 h5 a6 h6 a7 h7 hc x0 x1 x2 x3)]
  unfold run1_A
  dsimp only
  sl_unfold_words
  rw [View.canon_cons_unit_zero (S := S1024) hz1, View.readCov_unit_zero (S := S1024) _ hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1]

/-- Case B, first accumulator: the tile's masked row sums added to the running contents. -/
theorem val1_B_4 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i) (x0 : Vec F S1024x1024 .bf16) (x1 : Vec F S512x1024 .bf16) (x2 : Vec F S1024 .i32) (x3 : Vec F S512 .i32) (xo4 : Vec F S1024 .f32) (xo5 : Vec F S1024 .f32)
    (f : a6.view.ty.Contents (Elt F)) :
    a6.view.read (Elt F) (a6.view.writes (Elt F) f (run1_B c i a2 h2 a3 h3 a4 h4 a5 h5 a6 h6 a7 h7 hc x0 x1 x2 x3 xo4 xo5).1)
      = k1_pay7 i x0 x1 x2 x3 xo4 := by
  rw [View.read_writes_eq_canon _ _ _ (cover1_B_4 c i a2 h2 a3 h3 a4 h4 a5 h5 a6 h6 a7 h7 hc x0 x1 x2 x3 xo4 xo5)]
  unfold run1_B
  dsimp only
  sl_unfold_words
  rw [View.canon_unit_zero (S := S1024) hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1, h6.read_unread]

/-- Case B, second accumulator: the tile's different-class row sums added to the running contents. -/
theorem val1_B_5 (c : Dev nD) (i : grid1.Coords)
    (a2 : Memref sig .tc .vmem S1024x1024 .bf16) (h2 : a2.IsWhole) (a3 : Memref sig .tc .vmem S512x1024 .bf16) (h3 : a3.IsWhole)
    (a4 : Memref sig .tc .vmem S1024 .i32) (h4 : a4.IsWhole) (a5 : Memref sig .tc .vmem S512 .i32) (h5 : a5.IsWhole)
    (a6 : Memref sig .tc .vmem S1024 .f32) (h6 : a6.IsWhole) (a7 : Memref sig .tc .vmem S1024 .f32) (h7 : a7.IsWhole)
    (hc : ¬cond1 i) (x0 : Vec F S1024x1024 .bf16) (x1 : Vec F S512x1024 .bf16) (x2 : Vec F S1024 .i32) (x3 : Vec F S512 .i32) (xo4 : Vec F S1024 .f32) (xo5 : Vec F S1024 .f32)
    (f : a7.view.ty.Contents (Elt F)) :
    a7.view.read (Elt F) (a7.view.writes (Elt F) f (run1_B c i a2 h2 a3 h3 a4 h4 a5 h5 a6 h6 a7 h7 hc x0 x1 x2 x3 xo4 xo5).2.1)
      = k1_pay1 (k1_pay6 x0 x1 x2 x3) (k1_pay8 xo5) := by
  rw [View.read_writes_eq_canon _ _ _ (cover1_B_5 c i a2 h2 a3 h3 a4 h4 a5 h5 a6 h6 a7 h7 hc x0 x1 x2 x3 xo4 xo5)]
  unfold run1_B
  dsimp only
  sl_unfold_words
  rw [View.canon_unit_zero (S := S1024) hz1]
  simp only [View.readAt_eq_ld, h2.read_unread, h3.read_unread, h4.read_unread, h5.read_unread,
    View.ld_unit_zero (S := S1024x1024) hz2, View.ld_unit_zero (S := S512x1024) hz2,
    View.ld_unit_zero (S := S1024) hz1, View.ld_unit_zero (S := S512) hz1, h7.read_unread]

variable (V : (c : Dev nD) → (b : Ref sig .tc) → Buf (Elt F) ((c : Thread nD τ).loc b))

/-! ## What the windows' buffers hold when the body is called -/

/-- Each input's current staging buffer holds its block at every point, fetched there or not: unfetched, the window's
    block index has not moved since the point before, and the body leaves an input's block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At a later point of a row block each accumulator's current staging buffer holds what the body left at the point
    before: the point is not the first, and the buffer was not written back between (a write-back happens only after
    the last point of a row block). -/
theorem before1_4_B (c : Dev nD) (t : Fin cfg1.N) (h0 : ¬t.val % 16 = 0) (d) :
    (dat1 V c).before 4 t d = accS V c (t.val - 1) (Nat.lt_of_le_of_lt (Nat.sub_le _ _) t.isLt) := by
  have hN : t.val < 128 := lt_of_lt_of_eq t.isLt (show cfg1.N = 128 from N_1)
  rw [Dat.before_out_kept _ 4 rfl t (by omega)
    (Bool.eq_false_iff.mpr fun h => by have := (flush1_4 _).mp h; dsimp only at this; omega)
    (fun _ => rfl) (fun _ _ => rfl)]
  rw [after1_4]
theorem before1_5_B (c : Dev nD) (t : Fin cfg1.N) (h0 : ¬t.val % 16 = 0) (d) :
    (dat1 V c).before 5 t d = accD V c (t.val - 1) (Nat.lt_of_le_of_lt (Nat.sub_le _ _) t.isLt) := by
  have hN : t.val < 128 := lt_of_lt_of_eq t.isLt (show cfg1.N = 128 from N_1)
  rw [Dat.before_out_kept _ 5 rfl t (by omega)
    (Bool.eq_false_iff.mpr fun h => by have := (flush1_5 _).mp h; dsimp only at this; omega)
    (fun _ => rfl) (fun _ _ => rfl)]
  rw [after1_5]

/-! ## The body obligation, at a generic point -/

/-- What the body is called with at point `t`: the invariant, what the core owes, and every window's current staging
    buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point. The inputs' memrefs hold their blocks; the closed form of the condition says which case the
    point is in. At a point that starts a row block the accumulators' memrefs may hold anything, and what the run
    leaves is the recursion's restart; at a later point they hold what the point before left, and what the run leaves
    is the recursion's step. The invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  by_cases h0 : t.val % 16 = 0
  · rw [accS_reset V c t h0, accD_reset V c t h0]
    iintro ⟨HΦ, Ho, ⟨%d0, H0⟩, ⟨%d1, H1⟩, ⟨%d2, H2⟩, ⟨%d3, H3⟩, ⟨%d4, H4⟩, ⟨%d5, H5⟩⟩
    iapply ((run1_A c (grid1.coords t) _ _ _ _ _ _ _ _ _ _ _ _ ((hcond1 t).mpr h0)
      (iblk1 V c 0 t) (iblk1 V c 1 t) (iblk1 V c 2 t) (iblk1 V c 3 t)).2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact val1_A_4 c _ _ _ _ _ _ _ _ _ _ _ _ _ _ _ _ _ _ _
    · unfold owns; iexists _; isplitr
      swap; · iexact H5
      ipureintro; exact val1_A_5 c _ _ _ _ _ _ _ _ _ _ _ _ _ _ _ _ _ _ _
  · rw [accS_step V c t h0, accD_step V c t h0]
    simp only [before1_4_B V c t h0, before1_5_B V c t h0]
    iintro ⟨HΦ, Ho, ⟨%d0, H0⟩, ⟨%d1, H1⟩, ⟨%d2, H2⟩, ⟨%d3, H3⟩, ⟨%d4, H4⟩, ⟨%d5, H5⟩⟩
    iapply ((run1_B c (grid1.coords t) _ _ _ _ _ _ _ _ _ _ _ _ (fun h => h0 ((hcond1 t).mp h))
      (iblk1 V c 0 t) (iblk1 V c 1 t) (iblk1 V c 2 t) (iblk1 V c 3 t) _ _).2.2 Set.univ _)
    isplitl [H0]; · iexact H0
    isplitl [H1]; · iexact H1
    isplitl [H2]; · iexact H2
    isplitl [H3]; · iexact H3
    isplitl [H4]; · iexact H4
    isplitl [H5]; · iexact H5
    iintro ⟨H0, H1, H2, H3, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact val1_B_4 c _ _ _ _ _ _ _ _ _ _ _ _ _ _ _ _ _ _ _ _ _
    · unfold owns; iexists _; isplitr
      swap; · iexact H5
      ipureintro; exact val1_B_5 c _ _ _ _ _ _ _ _ _ _ _ _ _ _ _ _ _ _ _ _ _

/-- The library's body obligation, at every point: the windows conjoined one by one. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
/-
  The run of the whole program, at any float family. The proof data of both kernel regions at once (region 0 entered
  from the launch contents, region 1 from those with the normalised rows written), the contents each region leaves
  (`znArr`: the normalised rows; `rsArr`, `rdArr`: the two arrays of row sums), the two regions as segment records
  around the thread state "every unscoped buffer at the current valuation, the generator register at some state,
  nothing owed", and the launch: the result buffer ends at the host tail of `rsArr`, `rdArr` and the labels.

  Region 1 reads ONE array through two windows twice over (the normalised rows by row block and by column block, the
  labels likewise): at its entry each such array's full share is split in two halves, one per window, and rejoined
  at its exit, both windows ending at the contents they began with.
-/
import proofs.«136886_j28595892256874_1_alg».proof.Proof.KI.RunCond
import proofs.«136886_j28595892256874_1_alg».proof.Proof.KI.Reg0
import proofs.«136886_j28595892256874_1_alg».proof.Proof.KI.Reg1
import Idealize.ShloMosaic.Lib.Pipeline.FrameBody
import Idealize.ShloMosaic.Lib.Pipeline.RegionsLoop
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Pipeline (Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions find and leave -/

/-- Region 0 is entered from the launch contents. -/
abbrev Vr0 : (c : Dev nD) → (b : Ref sig .tc) → Buf (Elt F) ((c : Thread nD τ).loc b) := fun c b => V0 m c b
/-- What region 0 leaves in its output array: the normalised rows. -/
def znArr (c : Dev nD) : Buf (Elt F) ((c : Thread nD τ).loc main_v0) := (dat0 (Vr0 m) c).arrAt 1 cfg0.N
/-- The buffers after region 0. -/
def W1 (c : Dev nD) : Valuation τ sig (Elt F) := Function.update (V0 m c) main_v0 (znArr m c)
/-- Region 1 is entered from them. -/
abbrev Vr1 : (c : Dev nD) → (b : Ref sig .tc) → Buf (Elt F) ((c : Thread nD τ).loc b) := fun c b => W1 m c b
/-- What region 1 leaves in its two output arrays: the same-class and the different-class row sums. -/
def rsArr (c : Dev nD) : Buf (Elt F) ((c : Thread nD τ).loc main_v1_0) := (dat1 (Vr1 m) c).arrAt 4 cfg1.N
def rdArr (c : Dev nD) : Buf (Elt F) ((c : Thread nD τ).loc main_v1_1) := (dat1 (Vr1 m) c).arrAt 5 cfg1.N
/-- The buffers after region 1. -/
def W2 (c : Dev nD) : Valuation τ sig (Elt F) :=
  Function.update (Function.update (W1 m c) main_v1_0 (rsArr m c)) main_v1_1 (rdArr m c)

/-- What the regions leave, as the family the host side's valuations are written over. -/
def outs : Outs (F := F) := fun J r c => if J = 1 then W1 m c r else W2 m c r

theorem outs_zn (c : Dev nD) : outs m 1 main_v0 c = znArr m c := by
  unfold outs; rw [if_pos rfl]; unfold W1; exact Function.update_self _ _ _
theorem outs_rs (c : Dev nD) : outs m 2 main_v1_0 c = rsArr m c := by
  unfold outs; rw [if_neg (by decide)]; unfold W2
  rw [Function.update_of_ne (StableHlo.devRef_ne_of_ne (by decide) : (Proc.devRef .tc main_v1_0 : DevRef τ sig) ≠ Proc.devRef .tc main_v1_1)]
  exact Function.update_self _ _ _
theorem outs_rd (c : Dev nD) : outs m 2 main_v1_1 c = rdArr m c := by
  unfold outs; rw [if_neg (by decide)]; unfold W2; exact Function.update_self _ _ _

/-- The host side's valuation after region 0 is `W1`, -/
theorem V1_eq (c : Dev nD) : V1 m (outs m) c = W1 m c := by
  show Function.update (V0 m c) _ (outs m 1 main_v0 c) = _
  rw [outs_zn]; rfl
/-- and after region 1 `W2`. -/
theorem V2_eq (c : Dev nD) : V2 m (outs m) c = W2 m c := by
  show Function.update (Function.update (V1 m (outs m) c) _ (outs m 2 main_v1_0 c)) _ (outs m 2 main_v1_1 c) = _
  rw [outs_rs, outs_rd, V1_eq]; rfl

/-! ## The proof data family and the thread state -/

/-- Both pipelines' proof data, each at its region's entry contents: a literal `match`. -/
def pdats : (p : Fin 2) → (c : Dev nD) → Dat τ (Elt F) Unit ℕ (UR sig nD τ) ℕ (cfgs p) c
  | ⟨0, _⟩ => fun c => dat0 (Vr0 m) c
  | ⟨1, _⟩ => fun c => dat1 (Vr1 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

/-- The buffers after region 0, read at the TensorCore's references. -/
abbrev Vx1 : (c : Dev nD) → (b : Ref sig .tc) → Buf (Elt F) ((c : Thread nD τ).loc b) := fun c b => V1 m (outs m) c b
/-- The buffers after region 1, read at the TensorCore's references. -/
abbrev Vx2 : (c : Dev nD) → (b : Ref sig .tc) → Buf (Elt F) ((c : Thread nD τ).loc b) := fun c b => V2 m (outs m) c b

/-- At region 0's exit each of its arrays holds what the pipeline leaves: the input as entered, the output the
    normalised rows. -/
theorem hF0 (c : Dev nD) (w : Fin cfg0.W) : (pdats m 0 c).arrAt w cfg0.N = Vx1 m c (Pipeline.arrRef spec0 w) := by
  match w with
  | ⟨0, _⟩ =>
    exact (((pdats m 0 c).arrAt_in 0 rfl _).trans (A_eq0 (Vr0 m) c 0)).trans (V1_of m (outs m) c main_arg1 (by decide)).symm
  | ⟨1, _⟩ =>
    show znArr m c = V1 m (outs m) c main_v0
    rw [V1_eq]; unfold W1; rw [Function.update_self]
/-- Every other buffer is as region 0 found it. -/
theorem hrest0 (c : Dev nD) : ∀ b, b ∉ Finset.univ.image (Pipeline.arrRef spec0) → Vx1 m c b = Vr0 m c b :=
  fun b hb => V1_of m (outs m) c b fun h => hb (Finset.mem_image.mpr ⟨1, Finset.mem_univ _, (List.mem_singleton.mp h).symm⟩)

/-! ## Region 1's arrays among the unscoped buffers

Region 1's six windows stand on four buffers: the normalised rows (windows 0 and 1), the labels (windows 2 and 3) and the
two outputs. The buffers whole at the full share ARE the windows' arrays at the proof data's shares — the two read
twice split in halves, one per window —, in both directions. -/

/-- The four buffers behind region 1's six windows. -/
theorem img1 : Finset.univ.image (Pipeline.arrRef spec1) = ({main_v0, main_arg3, main_v1_0, main_v1_1} : Finset (Ref sig .tc)) := by decide

/-- ENTRY: the buffers at contents `V` make the windows' arrays at contents `G` that read `V`. -/
theorem arrays1_of_bufs (Vd : (c : Dev nD) → (b : Ref sig .tc) → Buf (Elt F) ((c : Thread nD τ).loc b)) (c : Dev nD)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    (Pipeline.arrBufs spec1 c V : sProp 𝕄) ⊢ (dat1 Vd c).arrays G := by
  unfold Pipeline.Dat.arrays Pipeline.arrBufs
  rw [bigSep_W1, img1, bigSep_insert (by decide), bigSep_insert (by decide), bigSep_insert (by decide), bigSep_singleton]
  have e (w : Fin cfg1.W) (q : PosShare TreeShare) (hq : (dat1 Vd c).share w = q) :
      (View.loc c.tc (cfg1.win w).arr.view ↦[(cfg1.win w).arr.view.set]{(dat1 Vd c).share w} G w : sProp 𝕄)
        = (c.tc.loc (Pipeline.arrRef spec1 w) ↦{q} V (Pipeline.arrRef spec1 w)) := by
    rw [(arr_whole1 w).set_eq_univ, hq, hG w]
  rw [e 0 fullShare.left rfl, e 1 fullShare.right rfl, e 2 fullShare.left rfl, e 3 fullShare.right rfl, e 4 fullShare rfl, e 5 fullShare rfl]
  show (iprop((c.tc.loc main_v0 ↦{fullShare} V main_v0) ∗ (c.tc.loc main_arg3 ↦{fullShare} V main_arg3) ∗ (c.tc.loc main_v1_0 ↦{fullShare} V main_v1_0) ∗ (c.tc.loc main_v1_1 ↦{fullShare} V main_v1_1)) : sProp 𝕄) ⊢ _
  iintro ⟨H0, H3, H4, H5⟩
  ihave H0 := (pointsTo_share (PosShare.mem_left_op_right fullShare)).1 $$ H0
  ihave H3 := (pointsTo_share (PosShare.mem_left_op_right fullShare)).1 $$ H3
  icases H0 with ⟨H0l, H0r⟩
  icases H3 with ⟨H3l, H3r⟩
  isplitl [H0l]; · iexact H0l
  isplitl [H0r]; · iexact H0r
  isplitl [H3l]; · iexact H3l
  isplitl [H3r]; · iexact H3r
  isplitl [H4]; · iexact H4
  iexact H5

/-- EXIT: and back. -/
theorem bufs_of_arrays1 (Vd : (c : Dev nD) → (b : Ref sig .tc) → Buf (Elt F) ((c : Thread nD τ).loc b)) (c : Dev nD)
    (V : (b : Ref sig .tc) → Buf (Elt F) ((c : Thread nD τ).loc b))
    (G : (w : Fin cfg1.W) → Buf (Elt F) ((cfg1.win w).arr.view.loc (c : Thread nD τ))) (hG : ∀ w, G w = V (Pipeline.arrRef spec1 w)) :
    ((dat1 Vd c).arrays G : sProp 𝕄) ⊢ Pipeline.arrBufs spec1 c V := by
  unfold Pipeline.Dat.arrays Pipeline.arrBufs
  rw [bigSep_W1, img1, bigSep_insert (by decide), bigSep_insert (by decide), bigSep_insert (by decide), bigSep_singleton]
  have e (w : Fin cfg1.W) (q : PosShare TreeShare) (hq : (dat1 Vd c).share w = q) :
      (View.loc c.tc (cfg1.win w).arr.view ↦[(cfg1.win w).arr.view.set]{(dat1 Vd c).share w} G w : sProp 𝕄)
        = (c.tc.loc (Pipeline.arrRef spec1 w) ↦{q} V (Pipeline.arrRef spec1 w)) := by
    rw [(arr_whole1 w).set_eq_univ, hq, hG w]
  rw [e 0 fullShare.left rfl, e 1 fullShare.right rfl, e 2 fullShare.left rfl, e 3 fullShare.right rfl, e 4 fullShare rfl, e 5 fullShare rfl]
  show _ ⊢ (iprop((c.tc.loc main_v0 ↦{fullShare} V main_v0) ∗ (c.tc.loc main_arg3 ↦{fullShare} V main_arg3) ∗ (c.tc.loc main_v1_0 ↦{fullShare} V main_v1_0) ∗ (c.tc.loc main_v1_1 ↦{fullShare} V main_v1_1)) : sProp 𝕄)
  iintro ⟨H0l, H0r, H3l, H3r, H4, H5⟩
  isplitl [H0l H0r]
  · iapply (pointsTo_share (PosShare.mem_left_op_right fullShare)).2
    isplitl [H0l]; · iexact H0l
    iexact H0r
  isplitl [H3l H3r]
  · iapply (pointsTo_share (PosShare.mem_left_op_right fullShare)).2
    isplitl [H3l]; · iexact H3l
    iexact H3r
  isplitl [H4]; · iexact H4
  iexact H5

/-! ## The regions as segments -/

set_option backward.isDefEq.respectTransparency.types false in
/-- REGION 0 over the thread state: entered from every unscoped buffer at the launch contents, left at those with
    the normalised rows written. Its arrays are split out of the unscoped buffers and put back at the exit contents;
    the generator register goes into the invariant and comes back; nothing is owed; the kernel has no semaphore of
    its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr0 m c) (Vx1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 1's exit each of its arrays holds what the pipeline leaves: the four inputs as entered, the outputs
    the two arrays of row sums. -/
theorem hF1 (c : Dev nD) (w : Fin cfg1.W) : (pdats m 1 c).arrAt w cfg1.N = Vx2 m c (Pipeline.arrRef spec1 w) := by
  have hv0 : Vr1 m c main_v0 = Vx2 m c main_v0 :=
    ((V2_of m (outs m) c main_v0 (by decide)).trans (congrFun (V1_eq m c) _)).symm
  have ha3 : Vr1 m c main_arg3 = Vx2 m c main_arg3 :=
    ((V2_of m (outs m) c main_arg3 (by decide)).trans (congrFun (V1_eq m c) _)).symm
  match w with
  | ⟨0, _⟩ => exact (((pdats m 1 c).arrAt_in 0 rfl _).trans (A_eq1 (Vr1 m) c 0)).trans hv0
  | ⟨1, _⟩ => exact (((pdats m 1 c).arrAt_in 1 rfl _).trans (A_eq1 (Vr1 m) c 1)).trans hv0
  | ⟨2, _⟩ => exact (((pdats m 1 c).arrAt_in 2 rfl _).trans (A_eq1 (Vr1 m) c 2)).trans ha3
  | ⟨3, _⟩ => exact (((pdats m 1 c).arrAt_in 3 rfl _).trans (A_eq1 (Vr1 m) c 3)).trans ha3
  | ⟨4, _⟩ =>
    show rsArr m c = V2 m (outs m) c main_v1_0
    rw [V2_eq]; unfold W2
    rw [Function.update_of_ne (StableHlo.devRef_ne_of_ne (by decide) : (Proc.devRef .tc main_v1_0 : DevRef τ sig) ≠ Proc.devRef .tc main_v1_1),
      Function.update_self]
  | ⟨5, _⟩ =>
    show rdArr m c = V2 m (outs m) c main_v1_1
    rw [V2_eq]; unfold W2; rw [Function.update_self]
/-- Every other buffer is as region 1 found it. -/
theorem hrest1 (c : Dev nD) : ∀ b, b ∉ Finset.univ.image (Pipeline.arrRef spec1) → Vx2 m c b = Vx1 m c b :=
  fun b hb => V2_of m (outs m) c b fun h => by
    rcases List.mem_cons.mp h with h | h
    · exact hb (Finset.mem_image.mpr ⟨4, Finset.mem_univ _, h.symm⟩)
    · exact hb (Finset.mem_image.mpr ⟨5, Finset.mem_univ _, (List.mem_singleton.mp h).symm⟩)

set_option backward.isDefEq.respectTransparency.types false in
/-- REGION 1 over the thread state: entered from every unscoped buffer at the contents region 0 left, left at those
    with the two arrays of row sums written. At entry the two arrays read twice are split in halves among their
    windows; at exit the halves are rejoined, both windows of a pair ending at the contents they began with. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (Vr1 m) c).loose
  hwaits := Pipeline.hwaits_of_owed_zero _ _ _ _ L lv 1 fun _ _ => rfl
  pre c := iprop(StableHlo.held (c : Thread nD τ) (Pipeline.ucRefs τ sig) (V1 m (outs m) c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vx1 m c)
  hentry c := by
    rw [Pipeline.ownSems0_none]
    have hsplit : (StableHlo.held (c : Thread nD τ) (Pipeline.ucRefs τ sig) (V1 m (outs m) c) : sProp 𝕄)
        ⊢ iprop((pdats m 1 c).arrays ((pdats m 1 c).arrAt · 0) ∗ Pipeline.unscopedRest spec1 c (Vx1 m c)) := by
      rw [← Pipeline.unscopedBufs_held c (V1 m (outs m) c),
        Pipeline.unscopedBufs_split₀ (Pipeline.pin (pcfgs (F := F)) adm) (1 : Fin 2) winFacts₀1.arr_unscoped c (Vx1 m c)]
      exact sep_mono (arrays1_of_bufs (Vr1 m) c (Vx1 m c) _ fun w => by
        show Vr1 m c _ = V1 m (outs m) c _
        rw [V1_eq]) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (Vx1 m c))
        ⊢ (StableHlo.held (c : Thread nD τ) (Pipeline.ucRefs τ sig) (V2 m (outs m) c) : sProp 𝕄) := by
      rw [← Pipeline.unscopedBufs_held c (V2 m (outs m) c),
        Pipeline.unscopedBufs_split₀ (Pipeline.pin (pcfgs (F := F)) adm) (1 : Fin 2) winFacts₀1.arr_unscoped c (Vx2 m c)]
      refine sep_mono (bufs_of_arrays1 (Vr1 m) c (Vx2 m c) _ (hF1 m c)) (Entails.of_eq ?_)
      unfold Pipeline.unscopedRest
      exact bigSep_congr fun b hb => by rw [hrest1 m c b (Finset.mem_sdiff.mp hb).2]
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

set_option backward.isDefEq.respectTransparency.types false in
/-- THE RUN: every weakly fair execution of @main terminates, the result buffer ends at the host tail's value of what
    the regions leave, the arguments end unchanged. -/
theorem run_main : θ_run defs (onTc (τ := τ) (main (F := F))) ⟨m, fun _ => 0, ρ⟩ (fun r => ∀ c : Dev nD,
      r.2.mem ((c.tc : Thread nD τ).loc main_v20) = V9 m (outs m) c main_v20
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_cond m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun _ => .rfl) (fun _ => .rfl) (reg1 m) (fun _ => .rfl) (fun _ => .rfl)

end Cert.KernelIdeal.Hand

end
-- ==== Proof.KI.Tail.lean ====
/-
  The host tail both programs end with, as ONE function of the two arrays of row sums and the labels: the three
  segment sums (of the same-class row sums, of the different-class row sums, and of ones: the class counts) by a
  scatter-add of the 8192 rows into 200 classes; a class is present when its count is positive; per present class
  the logarithm of the quotient of its two sums (an absent class's sums are replaced by one, its term by zero);
  the sum over the classes, divided by 128. The kernel's result buffer is this function of what its two regions
  leave; the reference's last stage is this function of its two row-sum stages.
-/
import proofs.«136886_j28595892256874_1_alg».proof.Proof.KI.RunCond
import proofs.«136886_j28595892256874_1_alg».proof.Proof.RefRead
import Idealize.ShloMosaic.Lib.StableHlo.Run

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

/-- The 200 classes at zero. -/
def zeros200 : (⟨S200, .f32⟩ : BufTy).Contents (Elt F) := broadcastInDim S200 ![] bcast_S_S200 (constant S_ .f32 0x00000000#32)

/-- The segment sum of `u` by class: row `r`'s entry added into class `lab r`. -/
def seg (lab : (⟨S8192, .i32⟩ : BufTy).Contents (Elt F)) (u : (⟨S8192, .f32⟩ : BufTy).Contents (Elt F)) : (⟨S200, .f32⟩ : BufTy).Contents (Elt F) :=
  Host.scatterAdd scatter_S200_S8192x1_S8192_n_0_0_1 (zeros200 (F := F)) (broadcastInDim S8192x1 ![0] bcast_S8192_S8192x1_0 lab) u

/-- A class is present when some row carries it: its count is positive. -/
def present (lab : (⟨S8192, .i32⟩ : BufTy).Contents (Elt F)) : (⟨S200, .i1⟩ : BufTy).Contents (Elt F) :=
  cmpf (F := F) .ogt (seg lab (broadcastInDim S8192 ![] bcast_S_S8192 (constant S_ .f32 0x3F800000#32))) (zeros200 (F := F))

/-- The 200 classes at the word `w` (what an absent class's entry is replaced by). -/
def fill200 (w : BitVec 32) : (⟨S200, .f32⟩ : BufTy).Contents (Elt F) := broadcastInDim S200 ![] bcast_S_S200 (id (constant S_ .f32 w))

/-- The tail: the mean over 128 of the present classes' log-quotients. -/
def tail (rs rd : (⟨S8192, .f32⟩ : BufTy).Contents (Elt F)) (lab : (⟨S8192, .i32⟩ : BufTy).Contents (Elt F)) : (⟨S_, .f32⟩ : BufTy).Contents (Elt F) :=
  Host.divf
    (Host.reduceAdd
      (select (present lab)
        (Host.log (Host.divf (select (present lab) (seg lab rs) (fill200 (F := F) 0x3F800000#32)) (select (present lab) (seg lab rd) (fill200 (F := F) 0x3F800000#32))))
        (fill200 (F := F) 0x00000000#32))
      (constant S_ .f32 0x00000000#32) reducesTo_S200_S_d0 h_S_)
    (constant S_ .f32 0x43000000#32)

/-- The tail of equal arrays is equal. -/
theorem tail_congr {rs rs' rd rd' : (⟨S8192, .f32⟩ : BufTy).Contents (Elt F)} {lab lab' : (⟨S8192, .i32⟩ : BufTy).Contents (Elt F)}
    (h1 : rs = rs') (h2 : rd = rd') (h3 : lab = lab') : tail rs rd lab = tail rs' rd' lab' := by
  subst h1 h2 h3; rfl

variable (m : (ℓ : Loc nD τ sig) → Buf (Elt F) ℓ) (outs : Outs (F := F))

set_option maxHeartbeats 4000000 in
/-- The kernel's result buffer after the seven host stretches: the tail of what the regions left in their two output
    arrays and of the labels. -/
theorem V9_result (c : Dev nD) :
    V9 m outs c main_v20 = tail (V2 m outs c main_v1_0) (V2 m outs c main_v1_1) (V2 m outs c main_arg3) := by
  show StableHlo.after hostOps2_6 (StableHlo.after hostOps2_5 (StableHlo.after hostOps2_4 (StableHlo.after hostOps2_3 (StableHlo.after hostOps2_2 (StableHlo.after hostOps2_1 (StableHlo.after hostOps2 (V2 m outs c))))))) (Proc.devRef .tc main_v20) = _
  after_results_simp
  simp only [TRef.ofBuf, TRef.toBuf, cast_eq]
  rfl

/-- The reference's last stage is the tail of its two row-sum stages and the labels. -/
theorem ref_tail (x1 : (⟨Cert.ReferenceIdeal.S8192x1024, .f32⟩ : BufTy).Contents (Elt F)) (x3 : (⟨Cert.ReferenceIdeal.S8192, .i32⟩ : BufTy).Contents (Elt F)) :
    Cert.ReferenceIdeal.Read.val_main_v43 (F := F) x1 x3
      = tail (Cert.ReferenceIdeal.Read.val_main_v21 (F := F) x1 x3) (Cert.ReferenceIdeal.Read.val_main_v24 (F := F) x1 x3) x3 := rfl

end Cert.KernelIdeal.Hand

end
-- ==== Proof.KI.Spec.lean ====
/-
  The mathematics of the kernel, as functions of the argument arrays over the extended reals, by coordinates.

  `znS z r k`   : entry `k` of row `r` of `z` divided by `max (sqrt (sum over k of z[r,k]²), eps)`, `eps` the f32 word
                  `0x322BCC77` both programs carry;
  `gram zn r c` : the inner product of rows `r` and `c` of `zn`;
  `rowS zn lab r`: the sum over all columns `c ≠ r` with `lab c = lab r` of `exp (gram zn r c)`;
  `rowD zn lab r`: the sum over all columns `c` with `lab c ≠ lab r` of `exp (gram zn r c)`.
  The kernel computes the two row sums tile by tile (16 column tiles of 512, accumulated from zero); the reference as
  one sum over 8192 columns. Addition on the extended reals is commutative and associative, so they agree.
-/
import proofs.«136886_j28595892256874_1_alg».proof.Proof.Gen.KernelIdeal
import Idealize.ShloMosaic.PureOps.Ideal
import Idealize.ShloMosaic.Lib.ValueIdx

set_option maxRecDepth 16384

noncomputable section

open scoped BigOperators

namespace Cert.KernelIdeal.Val

open Idealize.ShloMosaic Idealize.ShloMosaic.ValueIdx

/-- The floor both programs put under a row's norm: the f32 word `0x322BCC77` (the nearest f32 to `1e-8`). -/
abbrev eps : EReal := Ideal.ofBits .f32 0x322BCC77#32

/-- Row `r`'s divisor: its Euclidean norm, floored at `eps`. -/
def nrm (z : Fin 8192 → Fin 1024 → EReal) (r : Fin 8192) : EReal :=
  max (Ideal.sqrt (∑ k : Fin 1024, z r k * z r k)) eps

/-- The normalised rows. -/
def znS (z : Fin 8192 → Fin 1024 → EReal) (r : Fin 8192) (k : Fin 1024) : EReal :=
  Ideal.div (z r k) (nrm z r)

/-- The inner product of rows `r` and `c`. -/
def gram (zn : Fin 8192 → Fin 1024 → EReal) (r c : Fin 8192) : EReal := ∑ k : Fin 1024, zn r k * zn c k

/-- Row `r`'s same-class sum: over the other rows of its class. -/
def rowS (zn : Fin 8192 → Fin 1024 → EReal) (lab : Fin 8192 → BitVec 32) (r : Fin 8192) : EReal :=
  ∑ c : Fin 8192, if lab r = lab c ∧ r ≠ c then Ideal.exp (gram zn r c) else 0

/-- Row `r`'s different-class sum. -/
def rowD (zn : Fin 8192 → Fin 1024 → EReal) (lab : Fin 8192 → BitVec 32) (r : Fin 8192) : EReal :=
  ∑ c : Fin 8192, if lab r = lab c then 0 else Ideal.exp (gram zn r c)

end Cert.KernelIdeal.Val

end
-- ==== Proof.KI.ZnVal.lean ====
/- What region 0 leaves in its output array: every row of the input divided by its floored Euclidean norm. -/
import proofs.«136886_j28595892256874_1_alg».proof.Proof.KI.Data
import proofs.«136886_j28595892256874_1_alg».proof.Proof.KI.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val.Zn
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## Two layout readings of a column kept as a unit axis -/

section Layout
variable {α : Type}

/-- An `[a]` vector cast to the column `[a, 1]` reads, at `(i, u)`, the vector at `i`: both have row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The payload at an index -/

/-- The index the sum over the second axis inserts at row `p` is `(p, k)`. -/
theorem lift_row (h : S1024x1024.Reduces [1] S1024) (p k : Fin 1024) : h.lift (ix1 p) k = ix2 p k :=
  funext fun a => Fin.ext (match a with | ⟨0, _⟩ => rfl | ⟨1, _⟩ => rfl)

/-- The sum over the second axis of a `1024 × 1024` block, at row `p`, is the sum of that row's entries. -/
theorem rowsum_apply (x : FVec Ideal S1024x1024 .f32) (h : S1024x1024.Reduces [1] S1024) (hφ : FKind.Formats .f32)
    (hacc : (0x00000000#32 : BitVec 32) = FKind.add.neutral .f32 hφ) (p : Fin 1024) :
    multiReduction (F := Ideal) .add [1] S1024 x 0x00000000#32 h hφ hacc (ix1 p) = ∑ k : Fin 1024, x (ix2 p k) := by
  refine (Ideal.multiReduction_add_single x _ h hφ hacc (ix1 p)).trans ?_
  exact Finset.sum_congr rfl fun k _ => congrArg x (lift_row h p k)

/-- The body's result at `(p, q)` of a block: the entry over the larger of the root of its row's sum of squares and `eps`. -/
theorem pay_apply (x0 : Vec Ideal S1024x1024 .f32) (p q : Fin 1024) :
    k0_pay1 x0 (ix2 p q)
      = Ideal.div (x0 (ix2 p q)) (max (Ideal.sqrt (∑ k : Fin 1024, x0 (ix2 p k) * x0 (ix2 p k))) eps) := by
  unfold k0_pay1
  refine congrArg (Ideal.div (x0 (ix2 p q))) ?_
  refine (broadcastTo_a1_ab_apply _ _ p q).trans ?_
  refine congrArg (fun z => max (Ideal.sqrt z) eps) ?_
  refine (shapeCast_a_a1_apply _ _ p 0).trans ?_
  exact rowsum_apply (mulf x0 x0) _ _ _ p

/-! ## The blocks in their arrays -/

/-- Both windows of region 0 are at block `(t, 0)` at point `t` (decided over the 8 points). -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

variable (V : (c : Dev nD) → (b : Ref sig .tc) → Buf (Elt Ideal) ((c : Thread nD τ).loc b))

/-- The input array by coordinates. -/
abbrev zin (c : Dev nD) : Fin 8192 → Fin 1024 → EReal := fun r k => (V c main_arg1 : S8192x1024.Idx → EReal) (ix2 r k)

/-- Entry `(p, q)` of the input window's block at point `t` is entry `(1024 t + p, q)` of the input array. -/
theorem iblk0_apply (c : Dev nD) (t : Fin cfg0.N) (p q : Fin 1024) (hp : 1024 * t.val + p.val < 8192) :
    (iblk0 V c 0 t : S1024x1024.Idx → EReal) (ix2 p q) = zin V c ⟨1024 * t.val + p.val, hp⟩ q := by
  obtain ⟨e0, e1, -, -⟩ := idx_facts0 t
  show V c main_arg1 (((cfg0.win 0).blk t).view.emb (ix2 p q)) = V c main_arg1 (ix2 ⟨1024 * t.val + p.val, hp⟩ q)
  refine congrArg (V c main_arg1) (funext fun a => Fin.ext ?_)
  match a with
  | ⟨0, _⟩ => show win0_0.index t (0 : Fin 2) * 1024 + 1 * p.val = 1024 * t.val + p.val; omega
  | ⟨1, _⟩ => show win0_0.index t (1 : Fin 2) * 1024 + 1 * q.val = q.val; omega

/-- The whole output array: the normalised rows of the input array. -/
def znArr (c : Dev nD) : S8192x1024.Idx → EReal :=
  fun i => znS (zin V c) (i 0) (i 1)

/-- Two rows equal entry by entry have the same normalised entries. -/
theorem div_norm_congr (f g : Fin 1024 → EReal) (h : ∀ k, f k = g k) (q : Fin 1024) :
    Ideal.div (f q) (max (Ideal.sqrt (∑ k : Fin 1024, f k * f k)) eps)
      = Ideal.div (g q) (max (Ideal.sqrt (∑ k : Fin 1024, g k * g k)) eps) := by
  rw [show f = g from funext h]

/-- What point `t` writes back is block `t` of the normalised rows. -/
theorem flushed_eq (c : Dev nD) (t : Fin cfg0.N) :
    (dat0 (F := Ideal) V c).flushed 1 t = ((cfg0.win 1).blk t).view.read (Elt Ideal) (znArr V c) := by
  show (cfg0.win 1).cut (grid0.coords t) ((dat0 (F := Ideal) V c).after 1 t) = _
  rw [after0_1]
  have ht : t.val < 8 := by have hlt : t.val < grid0.N := t.isLt; have hN : grid0.N = 8 := N_0; omega
  obtain ⟨-, -, e2, e3⟩ := idx_facts0 t
  funext j
  obtain ⟨p, q, rfl⟩ : ∃ (p : Fin 1024) (q : Fin 1024), j = ix2 p q := ⟨j 0, j 1, eq_ix2 j⟩
  have hp : 1024 * t.val + p.val < 8192 := by have := p.isLt; omega
  have hemb : ((cfg0.win 1).blk t).view.emb (ix2 p q) = (ix2 ⟨1024 * t.val + p.val, hp⟩ q : S8192x1024.Idx) := by
    funext a; apply Fin.ext
    match a with
    | ⟨0, _⟩ => show win0_1.index t (0 : Fin 2) * 1024 + 1 * p.val = 1024 * t.val + p.val; omega
    | ⟨1, _⟩ => show win0_1.index t (1 : Fin 2) * 1024 + 1 * q.val = q.val; omega
  show k0_pay1 (iblk0 V c 0 t) (ix2 p q) = znArr V c (((cfg0.win 1).blk t).view.emb (ix2 p q))
  rw [hemb]
  refine (pay_apply _ p q).trans ?_
  exact div_norm_congr (fun k => (iblk0 V c 0 t : S1024x1024.Idx → EReal) (ix2 p k)) (fun k => zin V c ⟨1024 * t.val + p.val, hp⟩ k)
    (fun k => iblk0_apply V c t p k hp) q

/-- An index of the output array is in point `t`'s block iff each coordinate is in the block's range on its axis. -/
theorem mem_blk (t : Fin cfg0.N) (i : S8192x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v0).slice (win0_1.rect t)).set ↔ _
  rw [View.set_slice_whole, Rect.mem_set_unit]
  exact Iff.rfl

/-- Every index of the output array is in the block of the point its row falls in: row `r` in block `r / 1024`. -/
theorem cover (i : S8192x1024.Idx) : ∃ t : Fin cfg0.N, (cfg0.win 1).flush t = true ∧ i ∈ ((cfg0.win 1).blk t).view.set := by
  have hi0 : (i 0).val < 8192 := (i 0).isLt
  have hi1 : (i 1).val < 1024 := (i 1).isLt
  have hN : grid0.N = 8 := N_0
  let t : Fin cfg0.N := ⟨(i 0).val / 1024, by show (i 0).val / 1024 < grid0.N; omega⟩
  obtain ⟨-, -, e2, e3⟩ := idx_facts0 t
  have htv : t.val = (i 0).val / 1024 := rfl
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- After region 0 its output array holds the normalised rows of the array its input window reads. -/
theorem zn_final (c : Dev nD) (r : Fin 8192) (k : Fin 1024) :
    ((dat0 (F := Ideal) V c).arrAt 1 cfg0.N : S8192x1024.Idx → EReal) (ix2 r k)
      = znS (fun r k => (V c main_arg1 : S8192x1024.Idx → EReal) (ix2 r k)) r k :=
  congrFun ((dat0 (F := Ideal) V c).arrAt_eq_of_cover 1 (znArr V c) (fun t _ => flushed_eq V c t) cover) (ix2 r k)

end Cert.KernelIdeal.Val.Zn

end
-- ==== Proof.KI.TileVal.lean ====
/- Region 1's payloads at an index, at the ideal instance. -/
import proofs.«136886_j28595892256874_1_alg».proof.Proof.Gen.KernelIdeal.Skeleton
import proofs.«136886_j28595892256874_1_alg».proof.Proof.KI.Spec
import Idealize.ShloMosaic.Lib.Pipeline.Value
import Idealize.ShloMosaic.Lib.ValueIdx
import Idealize.ShloMosaic.Lib.ValueLayout
import Idealize.ShloMosaic.Lib.Affine
import Idealize.ShloMosaic.PureOps.Ideal.Laws

set_option maxRecDepth 16384

noncomputable section

open scoped BigOperators

namespace Cert.KernelIdeal.Val

open Cert.KernelIdeal Cert.KernelIdeal.Gen
open Idealize.ShloMosaic Idealize.ShloMosaic.ValueIdx

/-! ## Layout: a column of labels spread along the rows -/

/-- An `[a]` array cast to `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The zero blocks -/

/-- The zero blocks the accumulators are reset to. -/
theorem pay2_apply (p : Fin 1024) : (k1_pay2 (F := Ideal) : S1024.Idx → EReal) (ix1 p) = 0 := Ideal.ofBits_zero_f32
theorem pay3_apply (p : Fin 1024) : (k1_pay3 (F := Ideal) : S1024.Idx → EReal) (ix1 p) = 0 := Ideal.ofBits_zero_f32

/-! ## The product of the two blocks, contracting the second axis of both -/

theorem lhs_mm_0 (i : S1024x512.Idx) (q : dot_S1024x1024_S512x1024_S1024x512_1_1_0_0_n_n.contr.Idx) :
    (dot_S1024x1024_S512x1024_S1024x512_1_1_0_0_n_n.lhsIdx i q 0).val = (i 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem lhs_mm_1 (i : S1024x512.Idx) (q : dot_S1024x1024_S512x1024_S1024x512_1_1_0_0_n_n.contr.Idx) :
    (dot_S1024x1024_S512x1024_S1024x512_1_1_0_0_n_n.lhsIdx i q 1).val = (q ⟨0, by decide⟩).val :=
  dot_S1024x1024_S512x1024_S1024x512_1_1_0_0_n_n.lhsIdx_val_of_single rfl i q
theorem rhs_mm_0 (i : S1024x512.Idx) (q : dot_S1024x1024_S512x1024_S1024x512_1_1_0_0_n_n.contr.Idx) :
    (dot_S1024x1024_S512x1024_S1024x512_1_1_0_0_n_n.rhsIdx i q 0).val = (i 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem rhs_mm_1 (i : S1024x512.Idx) (q : dot_S1024x1024_S512x1024_S1024x512_1_1_0_0_n_n.contr.Idx) :
    (dot_S1024x1024_S512x1024_S1024x512_1_1_0_0_n_n.rhsIdx i q 1).val = (q ⟨0, by decide⟩).val :=
  dot_S1024x1024_S512x1024_S1024x512_1_1_0_0_n_n.rhsIdx_val_of_single rfl i q

/-- The matrix product into the zero block, at `(p, q)`: the inner product of row `p` of the left block and row `q` of
    the right one. -/
theorem mm_apply (y0 : FVec Ideal S1024x1024 .bf16) (y1 : FVec Ideal S512x1024 .bf16) (p : Fin 1024) (q : Fin 512) :
    matmul dot_S1024x1024_S512x1024_S1024x512_1_1_0_0_n_n none y0 y1 (constant (F := Ideal) S1024x512 .f32 0x00000000#32) (ix2 p q)
      = ∑ k : Fin 1024, y0 (ix2 p k) * y1 (ix2 q k) := by
  refine (Ideal.matmul_constant_zero_apply dot_S1024x1024_S512x1024_S1024x512_1_1_0_0_n_n none y0 y1 (ix2 p q)).trans ?_
  rw [← Equiv.sum_comp (contrEquiv1 dot_S1024x1024_S512x1024_S1024x512_1_1_0_0_n_n 1024 rfl rfl).symm]
  refine Finset.sum_congr rfl fun k _ => ?_
  have hk := contrEquiv1_symm_val dot_S1024x1024_S512x1024_S1024x512_1_1_0_0_n_n 1024 rfl rfl k
  have el : dot_S1024x1024_S512x1024_S1024x512_1_1_0_0_n_n.lhsIdx (ix2 p q) ((contrEquiv1 dot_S1024x1024_S512x1024_S1024x512_1_1_0_0_n_n 1024 rfl rfl).symm k) = ix2 p k := funext fun a => Fin.ext (by
    match a with
    | ⟨0, _⟩ => exact lhs_mm_0 _ _
    | ⟨1, _⟩ => exact (lhs_mm_1 _ _).trans hk)
  have er : dot_S1024x1024_S512x1024_S1024x512_1_1_0_0_n_n.rhsIdx (ix2 p q) ((contrEquiv1 dot_S1024x1024_S512x1024_S1024x512_1_1_0_0_n_n 1024 rfl rfl).symm k) = ix2 q k := funext fun a => Fin.ext (by
    match a with
    | ⟨0, _⟩ => exact rhs_mm_0 _ _
    | ⟨1, _⟩ => exact (rhs_mm_1 _ _).trans hk)
  rw [el, er]

/-- `exp` of the product, at `(p, q)`. -/
theorem pay4_apply (x0 : Vec Ideal S1024x1024 .bf16) (x1 : Vec Ideal S512x1024 .bf16) (p : Fin 1024) (q : Fin 512) :
    (k1_pay4 (F := Ideal) x0 x1 : S1024x512.Idx → EReal) (ix2 p q)
      = Ideal.exp (∑ k : Fin 1024, (x0 : S1024x1024.Idx → EReal) (ix2 p k) * (x1 : S512x1024.Idx → EReal) (ix2 q k)) := by
  unfold k1_pay4
  rw [shapeCast_self, shapeCast_self]
  exact congrArg Ideal.exp (mm_apply x0 x1 p q)

/-! ## The class mask: row labels against column labels -/

/-- The same-class word at `(p, q)`: the comparison of row `p`'s label with column `q`'s. -/
theorem pay5_apply (x2 : Vec Ideal S1024 .i32) (x3 : Vec Ideal S512 .i32) (p : Fin 1024) (q : Fin 512) :
    k1_pay5 (F := Ideal) x2 x3 (ix2 p q)
      = IntOp.cmpi .eq ((x2 : S1024.Idx → BitVec 32) (ix1 p)) ((x3 : S512.Idx → BitVec 32) (ix1 q)) := by
  unfold k1_pay5
  show IntOp.cmpi .eq (broadcastTo S1024x512 (shapeCast S1024x1 x2 shapeCasts_S1024_S1024x1) broadcasts_S1024x1_S1024x512 (ix2 p q))
      (broadcastTo S1024x512 (shapeCast S1x512 x3 shapeCasts_S512_S1x512) broadcasts_S1x512_S1024x512 (ix2 p q)) = _
  rw [broadcastTo_a1_ab_apply, broadcastTo_1b_ab_apply, shapeCast_a_a1_apply, shapeCast_a_1a_apply]

/-! ## The off-diagonal mask: global row index against global column index -/

/-- The off-diagonal mask of the tile at grid point `i`. -/
def mask7 (i : grid1.Coords) : IVec S1024x512 1 :=
  cmpi .ne
    (addi (broadcast S1024x512 (Scalar.muli (BitVec.ofNat 32 (i 0).val) 1024#32)) (iota .tc S1024x512 32 [0] iota_S1024x512_d0_w32))
    (addi (broadcast S1024x512 (Scalar.muli (BitVec.ofNat 32 (i 1).val) 512#32)) (iota .tc S1024x512 32 [1] iota_S1024x512_d1_w32))

theorem mask7_apply (i : grid1.Coords) (p : Fin 1024) (q : Fin 512) :
    mask7 i (ix2 p q)
      = IntOp.cmpi .ne (BitVec.ofNat 32 (i 0).val * 1024#32 + BitVec.ofNat 32 p.val) (BitVec.ofNat 32 (i 1).val * 512#32 + BitVec.ofNat 32 q.val) := by
  unfold mask7
  show IntOp.cmpi .ne (_ + iota .tc S1024x512 32 [0] iota_S1024x512_d0_w32 (ix2 p q)) (_ + iota .tc S1024x512 32 [1] iota_S1024x512_d1_w32 (ix2 p q)) = _
  rw [iota_single_apply, iota_single_apply]
  rfl

/-- Nothing wraps at 32 bits: the global row index as a word. -/
theorem word_row (a p : ℕ) (ha : a < 8) (hp : p < 1024) :
    (BitVec.ofNat 32 a * 1024#32 + BitVec.ofNat 32 p).toNat = a * 1024 + p := by
  simp only [BitVec.toNat_add, BitVec.toNat_mul, BitVec.toNat_ofNat, Nat.reducePow, Nat.reduceMod]
  omega
/-- The global column index as a word. -/
theorem word_col (b q : ℕ) (hb : b < 16) (hq : q < 512) :
    (BitVec.ofNat 32 b * 512#32 + BitVec.ofNat 32 q).toNat = b * 512 + q := by
  simp only [BitVec.toNat_add, BitVec.toNat_mul, BitVec.toNat_ofNat, Nat.reducePow, Nat.reduceMod]
  omega

/-- The words differ exactly when the natural numbers do. -/
theorem mask_iff (a b p q : ℕ) (ha : a < 8) (hb : b < 16) (hp : p < 1024) (hq : q < 512) :
    IntOp.cmpi .ne (BitVec.ofNat 32 a * 1024#32 + BitVec.ofNat 32 p) (BitVec.ofNat 32 b * 512#32 + BitVec.ofNat 32 q) = 1#1
      ↔ a * 1024 + p ≠ b * 512 + q := by
  rw [IntOp.cmpi_ne, Ne, Ne, ← BitVec.toNat_inj, word_row a p ha hp, word_col b q hb hq]

/-! ## One-bit words and the choice on them -/

/-- A choice on a one-bit word that is `1` exactly when `P` holds is the `if` on `P`. -/
theorem select_iff {α : Type} (c : BitVec 1) (P : Prop) [Decidable P] (h : c = 1#1 ↔ P) (a b : α) :
    Scalar.select c a b = if P then a else b := by
  by_cases hP : P
  · rw [if_pos hP, h.mpr hP]; exact select_one a b
  · rw [if_neg hP, eq_zero_of_ne_one (fun hc => hP (h.mp hc))]; exact select_zero a b

/-- The complement of a one-bit word (exclusive or with the all-ones word) is `1` exactly when the word is not. -/
theorem xori_one_eq_one (c : BitVec 1) : IntOp.xori c 1#1 = 1#1 ↔ ¬c = 1#1 := by revert c; decide

/-! ## The lane sum -/

/-- The sum along the columns of a `[1024, 512]` block, at row `p`. -/
theorem laneSum_apply (v : FVec Ideal S1024x512 .f32) (p : Fin 1024) :
    multiReduction (F := Ideal) .add [1] S1024 v 0x00000000#32 reduces_S1024x512_S1024 (.inl rfl) rfl (ix1 p)
      = ∑ q : Fin 512, v (ix2 p q) := by
  refine (Ideal.multiReduction_add_single v 0x00000000#32 reduces_S1024x512_S1024 (.inl rfl) rfl (ix1 p)).trans ?_
  refine Finset.sum_congr rfl fun q _ => congrArg v ?_
  exact Shape.idx_ext₂ rfl rfl

/-! ## The two accumulations -/

/-- The same-class payload as the composition of its pieces. -/
theorem pay7_eq (i : grid1.Coords) (x0 : Vec Ideal S1024x1024 .bf16) (x1 : Vec Ideal S512x1024 .bf16)
    (x2 : Vec Ideal S1024 .i32) (x3 : Vec Ideal S512 .i32) (acc : Vec Ideal S1024 .f32) :
    k1_pay7 (F := Ideal) i x0 x1 x2 x3 acc
      = addf (shapeCast S1024 acc shapeCasts_S1024_S1024)
          (multiReduction (F := Ideal) .add [1] S1024
            (select (andi (k1_pay5 (F := Ideal) x2 x3) (mask7 i)) (k1_pay4 (F := Ideal) x0 x1)
              (broadcast S1024x512 (Scalar.ofBits (F := Ideal) .f32 0x00000000#32)))
            0x00000000#32 reduces_S1024x512_S1024 (.inl rfl) rfl) := rfl

/-- One cell of the same-class tile: the exponential where the classes agree off the diagonal, else `0`. -/
theorem cell7 (i : grid1.Coords) (x0 : Vec Ideal S1024x1024 .bf16) (x1 : Vec Ideal S512x1024 .bf16)
    (x2 : Vec Ideal S1024 .i32) (x3 : Vec Ideal S512 .i32) (p : Fin 1024) (q : Fin 512) :
    (select (andi (k1_pay5 (F := Ideal) x2 x3) (mask7 i)) (k1_pay4 (F := Ideal) x0 x1)
        (broadcast S1024x512 (Scalar.ofBits (F := Ideal) .f32 0x00000000#32)) : S1024x512.Idx → EReal) (ix2 p q)
      = if (x2 : S1024.Idx → BitVec 32) (ix1 p) = (x3 : S512.Idx → BitVec 32) (ix1 q) ∧ (i 0).val * 1024 + p.val ≠ (i 1).val * 512 + q.val
          then Ideal.exp (∑ k : Fin 1024, (x0 : S1024x1024.Idx → EReal) (ix2 p k) * (x1 : S512x1024.Idx → EReal) (ix2 q k)) else 0 := by
  show Scalar.select (IntOp.andi (k1_pay5 (F := Ideal) x2 x3 (ix2 p q)) (mask7 i (ix2 p q))) (k1_pay4 (F := Ideal) x0 x1 (ix2 p q))
      (Ideal.ofBits .f32 0x00000000#32) = _
  rw [pay5_apply, mask7_apply, pay4_apply, Ideal.ofBits_zero_f32]
  exact select_iff _ _ (IntOp.andi_eq_one.trans (and_congr IntOp.cmpi_eq
    (mask_iff (i 0).val (i 1).val p.val q.val (i 0).isLt (i 1).isLt p.isLt q.isLt))) _ _

/-- One tile's contribution to the same-class accumulator, at row `p` of the tile: what the accumulator held plus the sum
    over the tile's 512 columns `q`, of `exp` of the inner product of the row block's row `p` and the column block's row
    `q`, over the columns of row `p`'s class whose global index (`512 j + q`) is not row `p`'s (`1024 i + p`). -/
theorem pay7_apply (i : grid1.Coords) (x0 : Vec Ideal S1024x1024 .bf16) (x1 : Vec Ideal S512x1024 .bf16)
    (x2 : Vec Ideal S1024 .i32) (x3 : Vec Ideal S512 .i32) (acc : Vec Ideal S1024 .f32) (p : Fin 1024) :
    (k1_pay7 (F := Ideal) i x0 x1 x2 x3 acc : S1024.Idx → EReal) (ix1 p)
      = (acc : S1024.Idx → EReal) (ix1 p)
        + ∑ q : Fin 512, if (x2 : S1024.Idx → BitVec 32) (ix1 p) = (x3 : S512.Idx → BitVec 32) (ix1 q) ∧ (i 0).val * 1024 + p.val ≠ (i 1).val * 512 + q.val
            then Ideal.exp (∑ k : Fin 1024, (x0 : S1024x1024.Idx → EReal) (ix2 p k) * (x1 : S512x1024.Idx → EReal) (ix2 q k)) else 0 := by
  refine (congrFun (pay7_eq i x0 x1 x2 x3 acc) (ix1 p)).trans ?_
  rw [shapeCast_self]
  refine (addf_apply _ _ _).trans ?_
  refine congrArg ((acc : S1024.Idx → EReal) (ix1 p) + ·) ?_
  refine (laneSum_apply _ p).trans ?_
  exact Finset.sum_congr rfl fun q _ => cell7 i x0 x1 x2 x3 p q

/-- The different-class payload as the composition of its pieces. -/
theorem payD_eq (x0 : Vec Ideal S1024x1024 .bf16) (x1 : Vec Ideal S512x1024 .bf16)
    (x2 : Vec Ideal S1024 .i32) (x3 : Vec Ideal S512 .i32) (acc : Vec Ideal S1024 .f32) :
    k1_pay1 (F := Ideal) (k1_pay6 x0 x1 x2 x3) (k1_pay8 acc)
      = addf (shapeCast S1024 acc shapeCasts_S1024_S1024)
          (multiReduction (F := Ideal) .add [1] S1024
            (select (xori (k1_pay5 (F := Ideal) x2 x3) (constantI S1024x512 1 1#1)) (k1_pay4 (F := Ideal) x0 x1)
              (broadcast S1024x512 (Scalar.ofBits (F := Ideal) .f32 0x00000000#32)))
            0x00000000#32 reduces_S1024x512_S1024 (.inl rfl) rfl) := rfl

/-- One cell of the different-class tile: `0` where the classes agree, else the exponential. -/
theorem cellD (x0 : Vec Ideal S1024x1024 .bf16) (x1 : Vec Ideal S512x1024 .bf16)
    (x2 : Vec Ideal S1024 .i32) (x3 : Vec Ideal S512 .i32) (p : Fin 1024) (q : Fin 512) :
    (select (xori (k1_pay5 (F := Ideal) x2 x3) (constantI S1024x512 1 1#1)) (k1_pay4 (F := Ideal) x0 x1)
        (broadcast S1024x512 (Scalar.ofBits (F := Ideal) .f32 0x00000000#32)) : S1024x512.Idx → EReal) (ix2 p q)
      = if (x2 : S1024.Idx → BitVec 32) (ix1 p) = (x3 : S512.Idx → BitVec 32) (ix1 q)
          then 0 else Ideal.exp (∑ k : Fin 1024, (x0 : S1024x1024.Idx → EReal) (ix2 p k) * (x1 : S512x1024.Idx → EReal) (ix2 q k)) := by
  show Scalar.select (IntOp.xori (k1_pay5 (F := Ideal) x2 x3 (ix2 p q)) 1#1) (k1_pay4 (F := Ideal) x0 x1 (ix2 p q))
      (Ideal.ofBits .f32 0x00000000#32) = _
  rw [pay5_apply, pay4_apply, Ideal.ofBits_zero_f32]
  refine (select_iff _ _ ((xori_one_eq_one _).trans (not_congr IntOp.cmpi_eq)) _ _).trans ?_
  by_cases h : (x2 : S1024.Idx → BitVec 32) (ix1 p) = (x3 : S512.Idx → BitVec 32) (ix1 q)
  · rw [if_neg (not_not_intro h), if_pos h]
  · rw [if_pos h, if_neg h]

/-- One tile's contribution to the different-class accumulator, at row `p` of the tile. -/
theorem payD_apply (x0 : Vec Ideal S1024x1024 .bf16) (x1 : Vec Ideal S512x1024 .bf16)
    (x2 : Vec Ideal S1024 .i32) (x3 : Vec Ideal S512 .i32) (acc : Vec Ideal S1024 .f32) (p : Fin 1024) :
    (k1_pay1 (F := Ideal) (k1_pay6 x0 x1 x2 x3) (k1_pay8 acc) : S1024.Idx → EReal) (ix1 p)
      = (acc : S1024.Idx → EReal) (ix1 p)
        + ∑ q : Fin 512, if (x2 : S1024.Idx → BitVec 32) (ix1 p) = (x3 : S512.Idx → BitVec 32) (ix1 q)
            then 0 else Ideal.exp (∑ k : Fin 1024, (x0 : S1024x1024.Idx → EReal) (ix2 p k) * (x1 : S512x1024.Idx → EReal) (ix2 q k)) := by
  refine (congrFun (payD_eq x0 x1 x2 x3 acc) (ix1 p)).trans ?_
  rw [shapeCast_self]
  refine (addf_apply _ _ _).trans ?_
  refine congrArg ((acc : S1024.Idx → EReal) (ix1 p) + ·) ?_
  refine (laneSum_apply _ p).trans ?_
  exact Finset.sum_congr rfl fun q _ => cellD x0 x1 x2 x3 p q

end Cert.KernelIdeal.Val

end
-- ==== Proof.KI.RowsVal.lean ====
/-
  What region 1 leaves in its two output arrays.

  Region 1 runs the grid 8 × 16; point `t = 16 i + j` works on row block `i` (rows `1024 i … 1024 i + 1023`) and column
  tile `j` (columns `512 j … 512 j + 511`). The two accumulators of row block `i` are reset at `j = 0` and receive, at
  every `j`, the tile's row sums: for row `p` of the block the sum over the tile's columns `q` of the summand of the pair
  (row `1024 i + p`, column `512 j + q`). By induction on `j` the accumulators after point `16 i + j` hold the sums over
  the column tiles `0 … j`; at `j = 15` the sixteen tiles of 512 columns are the 8192 columns (a re-indexing of a finite
  sum in a commutative monoid: no finiteness of the summands is used), so the block written back there is block `i` of
  the row sums `rowS` / `rowD`, and the eight blocks written back cover the array.
-/
import proofs.«136886_j28595892256874_1_alg».proof.Proof.KI.Data
import proofs.«136886_j28595892256874_1_alg».proof.Proof.KI.Spec
import proofs.«136886_j28595892256874_1_alg».proof.Proof.KI.TileVal
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val
open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-! The auxiliary declarations live in their own namespace `Rows`; the two results are stated outside it. -/
namespace Rows

/-! ## The arrays read, by coordinates -/

/-- The normalised rows region 1 reads, by row and column. -/
abbrev zn (c : Dev nD) : Fin 8192 → Fin 1024 → EReal := fun r k => (V c main_v0 : S8192x1024.Idx → EReal) (ix2 r k)

/-- The labels region 1 reads, by row. -/
abbrev lab (c : Dev nD) : Fin 8192 → BitVec 32 := fun r => (V c main_arg3 : S8192.Idx → BitVec 32) (ix1 r)

/-- The same-class summand of row `r` at column `col`. -/
def termS (c : Dev nD) (r col : Fin 8192) : EReal :=
  if lab V c r = lab V c col ∧ r ≠ col then Ideal.exp (gram (zn V c) r col) else 0

/-- The different-class summand of row `r` at column `col`. -/
def termD (c : Dev nD) (r col : Fin 8192) : EReal :=
  if lab V c r = lab V c col then 0 else Ideal.exp (gram (zn V c) r col)

/-- Row `p` of row block `i`, among the 8192 rows (`i` read modulo 8, so that it is a row for every natural). -/
def rowN (i : ℕ) (p : Fin 1024) : Fin 8192 := ⟨1024 * (i % 8) + p.val, by have := p.isLt; omega⟩

/-- Column `q` of column tile `s`, among the 8192 columns (`s` read modulo 16). -/
def colN (s : ℕ) (q : Fin 512) : Fin 8192 := ⟨512 * (s % 16) + q.val, by have := q.isLt; omega⟩

theorem colN_add (i j : ℕ) (q : Fin 512) : colN (16 * i + j) q = colN j q :=
  Fin.ext (by show 512 * ((16 * i + j) % 16) + q.val = 512 * (j % 16) + q.val; omega)

/-! ## The grid's coordinates and the windows' block indices, over the 128 points -/

theorem idx1_0 : ∀ t : Fin cfg1.N, win1_0.index t 0 = t.val / 16 ∧ win1_0.index t 1 = 0 :=
  (by decide +kernel : ∀ t : Fin grid1.N, win1_0.index t 0 = t.val / 16 ∧ win1_0.index t 1 = 0)
theorem idx1_1 : ∀ t : Fin cfg1.N, win1_1.index t 0 = t.val % 16 ∧ win1_1.index t 1 = 0 :=
  (by decide +kernel : ∀ t : Fin grid1.N, win1_1.index t 0 = t.val % 16 ∧ win1_1.index t 1 = 0)
theorem idx1_2 : ∀ t : Fin cfg1.N, win1_2.index t 0 = t.val / 16 :=
  (by decide +kernel : ∀ t : Fin grid1.N, win1_2.index t 0 = t.val / 16)
theorem idx1_3 : ∀ t : Fin cfg1.N, win1_3.index t 0 = t.val % 16 :=
  (by decide +kernel : ∀ t : Fin grid1.N, win1_3.index t 0 = t.val % 16)
theorem idx1_4 : ∀ t : Fin cfg1.N, win1_4.index t 0 = t.val / 16 :=
  (by decide +kernel : ∀ t : Fin grid1.N, win1_4.index t 0 = t.val / 16)
theorem idx1_5 : ∀ t : Fin cfg1.N, win1_5.index t 0 = t.val / 16 :=
  (by decide +kernel : ∀ t : Fin grid1.N, win1_5.index t 0 = t.val / 16)
theorem coords1_0 : ∀ t : Fin cfg1.N, (grid1.coords t 0).val = t.val / 16 :=
  (by decide +kernel : ∀ t : Fin grid1.N, (grid1.coords t 0).val = t.val / 16)
theorem coords1_1 : ∀ t : Fin cfg1.N, (grid1.coords t 1).val = t.val % 16 :=
  (by decide +kernel : ∀ t : Fin grid1.N, (grid1.coords t 1).val = t.val % 16)

theorem lt128 (t : Fin cfg1.N) : t.val < 128 := lt_of_lt_of_eq t.isLt N_1

/-! ## The four input blocks at a point: a block's coordinate is block index × block size + the coordinate inside -/

theorem blk0 (c : Dev nD) (t : Fin cfg1.N) (p : Fin 1024) (k : Fin 1024) :
    (iblk1 V c 0 t : S1024x1024.Idx → EReal) (ix2 p k) = zn V c (rowN (t.val / 16) p) k := by
  have ht := lt128 t
  unfold iblk1
  rw [View.read_apply]
  show (V c main_v0 : S8192x1024.Idx → EReal) _ = _
  congr 1
  funext a
  apply Fin.ext
  match a with
  | ⟨0, _⟩ => show win1_0.index t 0 * 1024 + 1 * p.val = 1024 * (t.val / 16 % 8) + p.val; rw [(idx1_0 t).1]; omega
  | ⟨1, _⟩ => show win1_0.index t 1 * 1024 + 1 * k.val = k.val; rw [(idx1_0 t).2]; omega

theorem blk1 (c : Dev nD) (t : Fin cfg1.N) (q : Fin 512) (k : Fin 1024) :
    (iblk1 V c 1 t : S512x1024.Idx → EReal) (ix2 q k) = zn V c (colN t.val q) k := by
  unfold iblk1
  rw [View.read_apply]
  show (V c main_v0 : S8192x1024.Idx → EReal) _ = _
  congr 1
  funext a
  apply Fin.ext
  match a with
  | ⟨0, _⟩ => show win1_1.index t 0 * 512 + 1 * q.val = 512 * (t.val % 16) + q.val; rw [(idx1_1 t).1]; omega
  | ⟨1, _⟩ => show win1_1.index t 1 * 1024 + 1 * k.val = k.val; rw [(idx1_1 t).2]; omega

theorem blk2 (c : Dev nD) (t : Fin cfg1.N) (p : Fin 1024) :
    (iblk1 V c 2 t : S1024.Idx → BitVec 32) (ix1 p) = lab V c (rowN (t.val / 16) p) := by
  have ht := lt128 t
  unfold iblk1
  rw [View.read_apply]
  show (V c main_arg3 : S8192.Idx → BitVec 32) _ = _
  congr 1
  funext a
  apply Fin.ext
  match a with
  | ⟨0, _⟩ => show win1_2.index t 0 * 1024 + 1 * p.val = 1024 * (t.val / 16 % 8) + p.val; rw [idx1_2 t]; omega

theorem blk3 (c : Dev nD) (t : Fin cfg1.N) (q : Fin 512) :
    (iblk1 V c 3 t : S512.Idx → BitVec 32) (ix1 q) = lab V c (colN t.val q) := by
  unfold iblk1
  rw [View.read_apply]
  show (V c main_arg3 : S8192.Idx → BitVec 32) _ = _
  congr 1
  funext a
  apply Fin.ext
  match a with
  | ⟨0, _⟩ => show win1_3.index t 0 * 512 + 1 * q.val = 512 * (t.val % 16) + q.val; rw [idx1_3 t]; omega

/-- Row `p` of row block `t / 16` is column `q` of column tile `t % 16` exactly when their global indices agree. -/
theorem ne_iff (t : Fin cfg1.N) (p : Fin 1024) (q : Fin 512) :
    ((grid1.coords t 0).val * 1024 + p.val ≠ (grid1.coords t 1).val * 512 + q.val) ↔ rowN (t.val / 16) p ≠ colN t.val q := by
  have ht := lt128 t
  rw [coords1_0, coords1_1, Ne, Ne, Fin.ext_iff]
  show ¬ _ ↔ ¬ (1024 * (t.val / 16 % 8) + p.val = 512 * (t.val % 16) + q.val)
  omega

/-! ## One point's contribution -/

theorem tileS (c : Dev nD) (t : Fin cfg1.N) (acc : Vec Ideal S1024 .f32) (p : Fin 1024) :
    (k1_pay7 (F := Ideal) (grid1.coords t) (iblk1 V c 0 t) (iblk1 V c 1 t) (iblk1 V c 2 t) (iblk1 V c 3 t) acc : S1024.Idx → EReal) (ix1 p)
      = (acc : S1024.Idx → EReal) (ix1 p) + ∑ q : Fin 512, termS V c (rowN (t.val / 16) p) (colN t.val q) := by
  rw [pay7_apply]
  congr 1
  refine Finset.sum_congr rfl fun q _ => ?_
  unfold termS gram
  rw [blk2, blk3]
  refine if_congr (and_congr Iff.rfl (ne_iff t p q)) ?_ rfl
  congr 1
  refine Finset.sum_congr rfl fun k _ => ?_
  rw [blk0, blk1]

theorem tileD (c : Dev nD) (t : Fin cfg1.N) (acc : Vec Ideal S1024 .f32) (p : Fin 1024) :
    (k1_pay1 (F := Ideal) (k1_pay6 (iblk1 V c 0 t) (iblk1 V c 1 t) (iblk1 V c 2 t) (iblk1 V c 3 t)) (k1_pay8 acc) : S1024.Idx → EReal) (ix1 p)
      = (acc : S1024.Idx → EReal) (ix1 p) + ∑ q : Fin 512, termD V c (rowN (t.val / 16) p) (colN t.val q) := by
  rw [payD_apply]
  congr 1
  refine Finset.sum_congr rfl fun q _ => ?_
  unfold termD gram
  rw [blk2, blk3]
  refine if_congr Iff.rfl rfl ?_
  congr 1
  refine Finset.sum_congr rfl fun k _ => ?_
  rw [blk0, blk1]

/-! ## A row block's run: the accumulators after point `16 i + j` hold the sums over column tiles `0 … j` -/

theorem accS_run (c : Dev nD) (i : ℕ) (p : Fin 1024) :
    ∀ (j : ℕ) (hj : j < 16) (h : 16 * i + j < cfg1.N),
      (accS V c (16 * i + j) h : S1024.Idx → EReal) (ix1 p)
        = ∑ s ∈ Finset.range (j + 1), ∑ q : Fin 512, termS V c (rowN i p) (colN s q)
  | 0, _, h => by
    have ht : (⟨16 * i + 0, h⟩ : Fin cfg1.N).val % 16 = 0 := by show (16 * i + 0) % 16 = 0; omega
    have hd : (16 * i + 0) / 16 = i := by omega
    rw [show accS V c (16 * i + 0) h = _ from accS_reset V c ⟨16 * i + 0, h⟩ ht, tileS, pay2_apply, zero_add,
      Finset.sum_range_one]
    show ∑ q : Fin 512, termS V c (rowN ((16 * i + 0) / 16) p) (colN (16 * i + 0) q) = _
    rw [hd]
    exact Finset.sum_congr rfl fun q _ => by rw [colN_add]
  | j + 1, hj, h => by
    have ht : ¬(⟨16 * i + (j + 1), h⟩ : Fin cfg1.N).val % 16 = 0 := by show ¬(16 * i + (j + 1)) % 16 = 0; omega
    have hd : (16 * i + (j + 1)) / 16 = i := by omega
    rw [show accS V c (16 * i + (j + 1)) h = _ from accS_step V c ⟨16 * i + (j + 1), h⟩ ht, tileS]
    show (accS V c (16 * i + j) (Nat.lt_of_succ_lt h) : S1024.Idx → EReal) (ix1 p)
      + ∑ q : Fin 512, termS V c (rowN ((16 * i + (j + 1)) / 16) p) (colN (16 * i + (j + 1)) q) = _
    rw [accS_run c i p j (Nat.lt_of_succ_lt hj) (Nat.lt_of_succ_lt h), Finset.sum_range_succ _ (j + 1), hd]
    congr 1
    exact Finset.sum_congr rfl fun q _ => by rw [colN_add]

theorem accD_run (c : Dev nD) (i : ℕ) (p : Fin 1024) :
    ∀ (j : ℕ) (hj : j < 16) (h : 16 * i + j < cfg1.N),
      (accD V c (16 * i + j) h : S1024.Idx → EReal) (ix1 p)
        = ∑ s ∈ Finset.range (j + 1), ∑ q : Fin 512, termD V c (rowN i p) (colN s q)
  | 0, _, h => by
    have ht : (⟨16 * i + 0, h⟩ : Fin cfg1.N).val % 16 = 0 := by show (16 * i + 0) % 16 = 0; omega
    have hd : (16 * i + 0) / 16 = i := by omega
    rw [show accD V c (16 * i + 0) h = _ from accD_reset V c ⟨16 * i + 0, h⟩ ht, tileD, pay3_apply, zero_add,
      Finset.sum_range_one]
    show ∑ q : Fin 512, termD V c (rowN ((16 * i + 0) / 16) p) (colN (16 * i + 0) q) = _
    rw [hd]
    exact Finset.sum_congr rfl fun q _ => by rw [colN_add]
  | j + 1, hj, h => by
    have ht : ¬(⟨16 * i + (j + 1), h⟩ : Fin cfg1.N).val % 16 = 0 := by show ¬(16 * i + (j + 1)) % 16 = 0; omega
    have hd : (16 * i + (j + 1)) / 16 = i := by omega
    rw [show accD V c (16 * i + (j + 1)) h = _ from accD_step V c ⟨16 * i + (j + 1), h⟩ ht, tileD]
    show (accD V c (16 * i + j) (Nat.lt_of_succ_lt h) : S1024.Idx → EReal) (ix1 p)
      + ∑ q : Fin 512, termD V c (rowN ((16 * i + (j + 1)) / 16) p) (colN (16 * i + (j + 1)) q) = _
    rw [accD_run c i p j (Nat.lt_of_succ_lt hj) (Nat.lt_of_succ_lt h), Finset.sum_range_succ _ (j + 1), hd]
    congr 1
    exact Finset.sum_congr rfl fun q _ => by rw [colN_add]

/-! ## The sixteen column tiles of 512 are the 8192 columns -/

theorem sum_cols {M : Type*} [AddCommMonoid M] (f : Fin 8192 → M) :
    ∑ s ∈ Finset.range 16, ∑ q : Fin 512, f (colN s q) = ∑ col : Fin 8192, f col := by
  rw [Finset.sum_range, ← Fintype.sum_prod_type']
  exact Fintype.sum_equiv (finProdFinEquiv (m := 16) (n := 512)) _ _ fun x => congrArg f (Fin.ext (by
    show 512 * (x.1.val % 16) + x.2.val = x.2.val + 512 * x.1.val
    have := x.1.isLt; omega))

/-- At the last point of a row block the same-class accumulator holds the rows' whole sums. -/
theorem accS_last (c : Dev nD) (t : Fin cfg1.N) (h15 : t.val % 16 = 15) (p : Fin 1024) :
    (accS V c t.val t.isLt : S1024.Idx → EReal) (ix1 p) = rowS (zn V c) (lab V c) (rowN (t.val / 16) p) := by
  have ht := lt128 t
  have hN : cfg1.N = 128 := N_1
  have e : ∀ (u : ℕ) (hu : u < cfg1.N), u = t.val → accS V c u hu = accS V c t.val t.isLt := fun u hu e => by subst e; rfl
  rw [← e (16 * (t.val / 16) + 15) (by omega) (by omega), accS_run V c (t.val / 16) p 15 (by omega), sum_cols]
  rfl

theorem accD_last (c : Dev nD) (t : Fin cfg1.N) (h15 : t.val % 16 = 15) (p : Fin 1024) :
    (accD V c t.val t.isLt : S1024.Idx → EReal) (ix1 p) = rowD (zn V c) (lab V c) (rowN (t.val / 16) p) := by
  have ht := lt128 t
  have hN : cfg1.N = 128 := N_1
  have e : ∀ (u : ℕ) (hu : u < cfg1.N), u = t.val → accD V c u hu = accD V c t.val t.isLt := fun u hu e => by subst e; rfl
  rw [← e (16 * (t.val / 16) + 15) (by omega) (by omega), accD_run V c (t.val / 16) p 15 (by omega), sum_cols]
  rfl

/-! ## The result arrays -/

/-- What the first output array ends holding: the same-class sum of each row. -/
def GS (c : Dev nD) : Buf (Elt Ideal) ((c : Thread nD τ).loc main_v1_0) :=
  fun i : S8192.Idx => (rowS (zn V c) (lab V c) (i 0) : EReal)

/-- What the second ends holding: the different-class sum of each row. -/
def GD (c : Dev nD) : Buf (Elt Ideal) ((c : Thread nD τ).loc main_v1_1) :=
  fun i : S8192.Idx => (rowD (zn V c) (lab V c) (i 0) : EReal)

/-- The write-back at the last point of row block `i` writes block `i` of the row sums. -/
theorem flushedS_eq (c : Dev nD) (t : Fin cfg1.N) (hf : (cfg1.win 4).flush t = true) :
    (dat1 (F := Ideal) V c).flushed 4 t = ((cfg1.win 4).blk t).view.read (Elt Ideal) (GS V c) := by
  have h15 : t.val % 16 = 15 := (flush1_4 t).mp hf
  have ht := lt128 t
  funext y
  obtain ⟨p, rfl⟩ : ∃ p : Fin 1024, y = ix1 p := ⟨y 0, eq_ix1 y⟩
  rw [View.read_apply]
  show ((dat1 (F := Ideal) V c).after 4 t : S1024.Idx → EReal) (ix1 p) = GS V c _
  rw [after1_4, accS_last V c t h15 p]
  unfold GS
  show rowS (zn V c) (lab V c) _ = rowS (zn V c) (lab V c) _
  congr 1
  apply Fin.ext
  show 1024 * (t.val / 16 % 8) + p.val = win1_4.index t 0 * 1024 + 1 * p.val
  rw [idx1_4 t]; omega

theorem flushedD_eq (c : Dev nD) (t : Fin cfg1.N) (hf : (cfg1.win 5).flush t = true) :
    (dat1 (F := Ideal) V c).flushed 5 t = ((cfg1.win 5).blk t).view.read (Elt Ideal) (GD V c) := by
  have h15 : t.val % 16 = 15 := (flush1_5 t).mp hf
  have ht := lt128 t
  funext y
  obtain ⟨p, rfl⟩ : ∃ p : Fin 1024, y = ix1 p := ⟨y 0, eq_ix1 y⟩
  rw [View.read_apply]
  show ((dat1 (F := Ideal) V c).after 5 t : S1024.Idx → EReal) (ix1 p) = GD V c _
  rw [after1_5, accD_last V c t h15 p]
  unfold GD
  show rowD (zn V c) (lab V c) _ = rowD (zn V c) (lab V c) _
  congr 1
  apply Fin.ext
  show 1024 * (t.val / 16 % 8) + p.val = win1_5.index t 0 * 1024 + 1 * p.val
  rw [idx1_5 t]; omega

/-- Row `r` lies in row block `r / 1024`, written back at point `16 (r / 1024) + 15`. -/
theorem coverS (i : S8192.Idx) : ∃ t : Fin cfg1.N, (cfg1.win 4).flush t = true ∧ i ∈ ((cfg1.win 4).blk t).view.set := by
  have h0 : (i 0 : Nat) < 8192 := (i 0).isLt
  have hN : cfg1.N = 128 := N_1
  have hlt : 16 * ((i 0).val / 1024) + 15 < cfg1.N := by omega
  refine ⟨⟨16 * ((i 0).val / 1024) + 15, hlt⟩, (flush1_4 _).mpr (by show (16 * ((i 0).val / 1024) + 15) % 16 = 15; omega), ?_⟩
  show i ∈ ((View.whole main_v1_0).slice (win1_4.rect ⟨16 * ((i 0).val / 1024) + 15, hlt⟩)).set
  rw [View.set_slice_whole, Rect.mem_set_unit]
  intro a
  match a with
  | ⟨0, _⟩ =>
    show win1_4.index ⟨16 * ((i 0).val / 1024) + 15, hlt⟩ 0 * 1024 ≤ (i 0 : Nat)
      ∧ (i 0 : Nat) < win1_4.index ⟨16 * ((i 0).val / 1024) + 15, hlt⟩ 0 * 1024 + 1024
    rw [idx1_4 ⟨16 * ((i 0).val / 1024) + 15, hlt⟩]
    show (16 * ((i 0).val / 1024) + 15) / 16 * 1024 ≤ (i 0 : Nat) ∧ (i 0 : Nat) < (16 * ((i 0).val / 1024) + 15) / 16 * 1024 + 1024
    omega

theorem coverD (i : S8192.Idx) : ∃ t : Fin cfg1.N, (cfg1.win 5).flush t = true ∧ i ∈ ((cfg1.win 5).blk t).view.set := by
  have h0 : (i 0 : Nat) < 8192 := (i 0).isLt
  have hN : cfg1.N = 128 := N_1
  have hlt : 16 * ((i 0).val / 1024) + 15 < cfg1.N := by omega
  refine ⟨⟨16 * ((i 0).val / 1024) + 15, hlt⟩, (flush1_5 _).mpr (by show (16 * ((i 0).val / 1024) + 15) % 16 = 15; omega), ?_⟩
  show i ∈ ((View.whole main_v1_1).slice (win1_5.rect ⟨16 * ((i 0).val / 1024) + 15, hlt⟩)).set
  rw [View.set_slice_whole, Rect.mem_set_unit]
  intro a
  match a with
  | ⟨0, _⟩ =>
    show win1_5.index ⟨16 * ((i 0).val / 1024) + 15, hlt⟩ 0 * 1024 ≤ (i 0 : Nat)
      ∧ (i 0 : Nat) < win1_5.index ⟨16 * ((i 0).val / 1024) + 15, hlt⟩ 0 * 1024 + 1024
    rw [idx1_5 ⟨16 * ((i 0).val / 1024) + 15, hlt⟩]
    show (16 * ((i 0).val / 1024) + 15) / 16 * 1024 ≤ (i 0 : Nat) ∧ (i 0 : Nat) < (16 * ((i 0).val / 1024) + 15) / 16 * 1024 + 1024
    omega

end Rows

open Rows

/-- After region 1 its first output array holds, row by row, the same-class sums of the rows and labels it read. -/
theorem rowsS_final (c : Dev nD) (r : Fin 8192) :
    ((dat1 (F := Ideal) V c).arrAt 4 cfg1.N : S8192.Idx → EReal) (ix1 r)
      = rowS (fun r k => (V c main_v0 : S8192x1024.Idx → EReal) (ix2 r k)) (fun r => (V c main_arg3 : S8192.Idx → BitVec 32) (ix1 r)) r :=
  congrFun ((dat1 (F := Ideal) V c).arrAt_eq_of_cover 4 (GS V c) (flushedS_eq V c) coverS) (ix1 r)

/-- And its second the different-class sums. -/
theorem rowsD_final (c : Dev nD) (r : Fin 8192) :
    ((dat1 (F := Ideal) V c).arrAt 5 cfg1.N : S8192.Idx → EReal) (ix1 r)
      = rowD (fun r k => (V c main_v0 : S8192x1024.Idx → EReal) (ix2 r k)) (fun r => (V c main_arg3 : S8192.Idx → BitVec 32) (ix1 r)) r :=
  congrFun ((dat1 (F := Ideal) V c).arrAt_eq_of_cover 5 (GD V c) (flushedD_eq V c) coverD) (ix1 r)

end Cert.KernelIdeal.Val

end
-- ==== Proof.KI.RefVal.lean ====
/- The reference's stages at an index: the two row sums of the reference program are the specification's. -/
import proofs.«136886_j28595892256874_1_alg».proof.Proof.RefRead
import proofs.«136886_j28595892256874_1_alg».proof.Proof.KI.Spec
import Idealize.ShloMosaic.Lib.Pipeline.Value
import Idealize.ShloMosaic.Lib.ValueIdx
import Idealize.ShloMosaic.Lib.StableHlo.Predicate
import Idealize.ShloMosaic.PureOps.Ideal.Laws

set_option maxRecDepth 16384

noncomputable section

open scoped BigOperators

namespace Cert.KernelIdeal.Val

open Idealize.ShloMosaic Idealize.ShloMosaic.ValueIdx
open Cert.ReferenceIdeal Cert.ReferenceIdeal.Read

namespace Ref

/-! ## The arguments by coordinates -/

/-- The input matrix by its two coordinates. -/
abbrev zOf (x1 : (⟨Cert.ReferenceIdeal.S8192x1024, .f32⟩ : BufTy).Contents (Elt Ideal)) : Fin 8192 → Fin 1024 → EReal :=
  fun r k => (x1 : Cert.ReferenceIdeal.S8192x1024.Idx → EReal) (ix2 r k)

/-- The label vector by its coordinate. -/
abbrev labOf (x3 : (⟨Cert.ReferenceIdeal.S8192, .i32⟩ : BufTy).Contents (Elt Ideal)) : Fin 8192 → BitVec 32 :=
  fun r => (x3 : Cert.ReferenceIdeal.S8192.Idx → BitVec 32) (ix1 r)

/-! ## Words -/

/-- Two row numbers below 8192 are equal as 32-bit words exactly when they are equal. -/
theorem ofNat32_inj (a b : Fin 8192) : BitVec.ofNat 32 a.val = BitVec.ofNat 32 b.val ↔ a = b := by
  constructor
  · intro h
    have h' := congrArg BitVec.toNat h
    simp only [BitVec.toNat_ofNat] at h'
    have ha := a.isLt
    have hb := b.isLt
    exact Fin.ext (by omega)
  · rintro rfl; rfl

theorem bit_and_not_11 : IntOp.andi (1#1 : BitVec 1) (~~~(1#1 : BitVec 1)) = 0#1 := by decide
theorem bit_and_not_10 : IntOp.andi (1#1 : BitVec 1) (~~~(0#1 : BitVec 1)) = 1#1 := by decide
theorem bit_and_not_01 : IntOp.andi (0#1 : BitVec 1) (~~~(1#1 : BitVec 1)) = 0#1 := by decide
theorem bit_and_not_00 : IntOp.andi (0#1 : BitVec 1) (~~~(0#1 : BitVec 1)) = 0#1 := by decide
theorem bit_not_1 : ~~~(1#1 : BitVec 1) = 0#1 := by decide
theorem bit_not_0 : ~~~(0#1 : BitVec 1) = 1#1 := by decide

/-- A choice on the bit "p and not q": the first operand exactly when p's condition holds and q's does not. -/
theorem select_and_not {α : Type} (p q : BitVec 1) (P Q : Prop) [Decidable P] [Decidable Q]
    (hp : p = 1#1 ↔ P) (hq : q = 1#1 ↔ Q) (a b : α) :
    Scalar.select (IntOp.andi p (~~~q)) a b = if P ∧ ¬Q then a else b := by
  by_cases hP : P <;> by_cases hQ : Q
  · rw [hp.mpr hP, hq.mpr hQ, bit_and_not_11, select_zero, if_neg (fun h => h.2 hQ)]
  · rw [hp.mpr hP, eq_zero_of_ne_one (mt hq.mp hQ), bit_and_not_10, select_one, if_pos ⟨hP, hQ⟩]
  · rw [eq_zero_of_ne_one (mt hp.mp hP), hq.mpr hQ, bit_and_not_01, select_zero, if_neg (fun h => hP h.1)]
  · rw [eq_zero_of_ne_one (mt hp.mp hP), eq_zero_of_ne_one (mt hq.mp hQ), bit_and_not_00, select_zero, if_neg (fun h => hP h.1)]

/-- A choice on the bit "not p": the second operand exactly when p's condition holds. -/
theorem select_not {α : Type} (p : BitVec 1) (P : Prop) [Decidable P] (hp : p = 1#1 ↔ P) (a b : α) :
    Scalar.select (~~~p) a b = if P then b else a := by
  by_cases hP : P
  · rw [hp.mpr hP, bit_not_1, select_zero, if_pos hP]
  · rw [eq_zero_of_ne_one (mt hp.mp hP), bit_not_0, select_one, if_neg hP]

/-! ## The composed index maps, by coordinates -/

theorem idx_norm_row (r : Fin 8192) (k : Fin 1024) : idx_main_call0_v2 (idx_main_v3 (ix2 r k)) = ix1 r :=
  funext fun a => Fin.ext (by match a with | ⟨0, _⟩ => rfl)
theorem idx_norm_sum (r : Fin 8192) (k : Fin 1024) : idx_main_call0_v1 (ix1 r) k = ix2 r k :=
  funext fun a => Fin.ext (by match a with | ⟨0, _⟩ => rfl | ⟨1, _⟩ => rfl)
theorem idx_dot_l (r c : Fin 8192) (k : Fin 1024) : lidx_main_v6 (ix2 r c) k = ix2 r k :=
  funext fun a => Fin.ext (by match a with | ⟨0, _⟩ => rfl | ⟨1, _⟩ => rfl)
theorem idx_dot_r (r c : Fin 8192) (k : Fin 1024) : idx_main_v5 (ridx_main_v6 (ix2 r c) k) = ix2 c k :=
  funext fun a => Fin.ext (by match a with | ⟨0, _⟩ => rfl | ⟨1, _⟩ => rfl)
theorem idx_lab_row (r c : Fin 8192) : idx_main_v8 (idx_main_v10 (ix2 r c)) = ix1 r :=
  funext fun a => Fin.ext (by match a with | ⟨0, _⟩ => rfl)
theorem idx_lab_col (r c : Fin 8192) : idx_main_v9 (idx_main_v11 (ix2 r c)) = ix1 c :=
  funext fun a => Fin.ext (by match a with | ⟨0, _⟩ => rfl)
theorem idx_sumS (r c : Fin 8192) : idx_main_v21 (ix1 r) c = ix2 r c :=
  funext fun a => Fin.ext (by match a with | ⟨0, _⟩ => rfl | ⟨1, _⟩ => rfl)
theorem idx_sumD (r c : Fin 8192) : idx_main_v24 (ix1 r) c = ix2 r c :=
  funext fun a => Fin.ext (by match a with | ⟨0, _⟩ => rfl | ⟨1, _⟩ => rfl)

/-! ## The float stages -/

/-- The reference's normalised matrix is the specification's. -/
theorem ref_zn (x1 : (⟨Cert.ReferenceIdeal.S8192x1024, .f32⟩ : BufTy).Contents (Elt Ideal)) (r : Fin 8192) (k : Fin 1024) :
    val_main_v4 (F := Ideal) x1 (ix2 r k) = znS (zOf x1) r k := by
  rw [val_main_v4_apply, val_main_v3_apply, val_main_v2_apply, val_main_v0_apply, val_main_call0_v2_apply,
    val_main_v1_apply, val_main_cst_apply, idx_norm_row, val_main_call0_v1_apply, val_main_call0_cst_apply]
  simp only [idx_norm_sum, val_main_call0_v0_apply, Ideal.hostDivf_def, Ideal.hostUnary_sqrt_def, Ideal.maximumf_def,
    Ideal.mulf_def, Ideal.ofBits_def, Ideal.ofBits_zero_f32, zero_add]
  rfl

/-- The reference's matrix of inner products is the specification's. -/
theorem ref_gram (x1 : (⟨Cert.ReferenceIdeal.S8192x1024, .f32⟩ : BufTy).Contents (Elt Ideal)) (r c : Fin 8192) :
    val_main_v6 (F := Ideal) x1 (ix2 r c) = gram (znS (zOf x1)) r c := by
  rw [val_main_v6_apply]
  unfold gram
  refine Finset.sum_congr rfl fun k _ => ?_
  rw [val_main_v5_apply, idx_dot_l, idx_dot_r, ref_zn, ref_zn]

/-- Its exponential. -/
theorem ref_exp (x1 : (⟨Cert.ReferenceIdeal.S8192x1024, .f32⟩ : BufTy).Contents (Elt Ideal)) (r c : Fin 8192) :
    val_main_v7 (F := Ideal) x1 (ix2 r c) = Ideal.exp (gram (znS (zOf x1)) r c) := by
  rw [val_main_v7_apply, ref_gram, Ideal.hostUnary_exp_def]

/-! ## The masks -/

/-- The same-class bit at row r, column c. -/
theorem ref_same (x3 : (⟨Cert.ReferenceIdeal.S8192, .i32⟩ : BufTy).Contents (Elt Ideal)) (r c : Fin 8192) :
    val_main_v12 (F := Ideal) x3 (ix2 r c) = 1#1 ↔ labOf x3 r = labOf x3 c := by
  rw [val_main_v12_apply, val_main_v10_apply, val_main_v8_apply, val_main_v11_apply, val_main_v9_apply,
    idx_lab_row, idx_lab_col]
  exact StableHlo.Predicate.cmpi_eq_iff

/-- The diagonal bit at row r, column c. -/
theorem ref_diag (r c : Fin 8192) : val_main_v17 (F := Ideal) (ix2 r c) = 1#1 ↔ r = c := by
  rw [val_main_v17_apply, val_main_v16_apply, val_main_v15_apply, val_main_c_apply, val_main_v13_apply,
    val_main_v14_apply]
  show IntOp.cmpi .eq (IntOp.addi (BitVec.ofNat 32 r.val) 0#32) (BitVec.ofNat 32 c.val) = 1#1 ↔ r = c
  rw [StableHlo.Predicate.cmpi_eq_iff, IntOp.addi, BitVec.add_zero]
  exact ofNat32_inj r c

/-! ## The masked exponentials and their row sums -/

theorem ref_selS (x1 : (⟨Cert.ReferenceIdeal.S8192x1024, .f32⟩ : BufTy).Contents (Elt Ideal)) (x3 : (⟨Cert.ReferenceIdeal.S8192, .i32⟩ : BufTy).Contents (Elt Ideal)) (r c : Fin 8192) :
    val_main_v20 (F := Ideal) x1 x3 (ix2 r c)
      = if labOf x3 r = labOf x3 c ∧ r ≠ c then Ideal.exp (gram (znS (zOf x1)) r c) else 0 := by
  rw [val_main_v20_apply, val_main_v19_apply, val_main_v18_apply, val_main_call1_v1_apply, val_main_call1_v0_apply,
    val_main_cst_0_apply, Ideal.ofBits_def, Ideal.ofBits_zero_f32, ref_exp]
  exact select_and_not _ _ _ _ (ref_same x3 r c) (ref_diag r c) _ _

theorem ref_selD (x1 : (⟨Cert.ReferenceIdeal.S8192x1024, .f32⟩ : BufTy).Contents (Elt Ideal)) (x3 : (⟨Cert.ReferenceIdeal.S8192, .i32⟩ : BufTy).Contents (Elt Ideal)) (r c : Fin 8192) :
    val_main_v23 (F := Ideal) x1 x3 (ix2 r c)
      = if labOf x3 r = labOf x3 c then 0 else Ideal.exp (gram (znS (zOf x1)) r c) := by
  rw [val_main_v23_apply, val_main_v22_apply, val_main_call2_v1_apply, val_main_call2_v0_apply,
    val_main_cst_2_apply, Ideal.ofBits_def, Ideal.ofBits_zero_f32, ref_exp]
  exact select_not _ _ (ref_same x3 r c) _ _

end Ref

open Ref

/-- The reference's two row-sum stages are the specification's, of the specification's normalised rows. -/
theorem ref_rowS (x1 : (⟨Cert.ReferenceIdeal.S8192x1024, .f32⟩ : BufTy).Contents (Elt Ideal)) (x3 : (⟨Cert.ReferenceIdeal.S8192, .i32⟩ : BufTy).Contents (Elt Ideal)) (r : Fin 8192) :
    (val_main_v21 (F := Ideal) x1 x3 : Cert.ReferenceIdeal.S8192.Idx → EReal) (ix1 r)
      = rowS (znS fun r k => (x1 : Cert.ReferenceIdeal.S8192x1024.Idx → EReal) (ix2 r k)) (fun r => (x3 : Cert.ReferenceIdeal.S8192.Idx → BitVec 32) (ix1 r)) r := by
  rw [val_main_v21_apply, val_main_cst_1_apply, Ideal.ofBits_def, Ideal.ofBits_zero_f32, zero_add]
  unfold rowS
  exact Finset.sum_congr rfl fun c _ => (congrArg _ (idx_sumS r c)).trans (ref_selS x1 x3 r c)

theorem ref_rowD (x1 : (⟨Cert.ReferenceIdeal.S8192x1024, .f32⟩ : BufTy).Contents (Elt Ideal)) (x3 : (⟨Cert.ReferenceIdeal.S8192, .i32⟩ : BufTy).Contents (Elt Ideal)) (r : Fin 8192) :
    (val_main_v24 (F := Ideal) x1 x3 : Cert.ReferenceIdeal.S8192.Idx → EReal) (ix1 r)
      = rowD (znS fun r k => (x1 : Cert.ReferenceIdeal.S8192x1024.Idx → EReal) (ix2 r k)) (fun r => (x3 : Cert.ReferenceIdeal.S8192.Idx → BitVec 32) (ix1 r)) r := by
  rw [val_main_v24_apply, val_main_cst_3_apply, Ideal.ofBits_def, Ideal.ofBits_zero_f32, zero_add]
  unfold rowD
  exact Finset.sum_congr rfl fun c _ => (congrArg _ (idx_sumD r c)).trans (ref_selD x1 x3 r c)

end Cert.KernelIdeal.Val

end
-- ==== Proof.KI.Claims.lean ====
/-
  The claims about the two idealized programs. At the ideal instance the kernel's result buffer is the host tail of
  the two arrays of row sums its second region leaves; those are, row by row, the specification's same-class and
  different-class sums of the normalised rows its first region leaves; the reference's two row-sum stages are the
  same sums of the same normalised rows, and its last stage the same tail of them. So from memories that agree on
  the arguments both programs end with the same result. The kernel sums each row's 8192 terms as sixteen tile sums
  of 512 accumulated from zero, the reference as one sum: equal on the extended reals, whose addition is
  commutative and associative — no finiteness of the inputs is used.
-/
import proofs.«136886_j28595892256874_1_alg».proof.Defs
import proofs.«136886_j28595892256874_1_alg».proof.Proof.Gen.Pre_finite_inputs
import proofs.«136886_j28595892256874_1_alg».proof.Proof.KI.Run
import proofs.«136886_j28595892256874_1_alg».proof.Proof.KI.Tail
import proofs.«136886_j28595892256874_1_alg».proof.Proof.KI.ZnVal
import proofs.«136886_j28595892256874_1_alg».proof.Proof.KI.RowsVal
import proofs.«136886_j28595892256874_1_alg».proof.Proof.KI.RefVal
import proofs.«136886_j28595892256874_1_alg».proof.Proof.RefRun
import proofs.«136886_j28595892256874_1_alg».proof.Proof.RefRead

set_option maxRecDepth 16384

noncomputable section

namespace Cert.Proof.IdealClaims

open Cert.KernelIdeal Cert.KernelIdeal.Gen Cert.KernelIdeal.Hand Cert.KernelIdeal.Val
open Idealize.ShloMosaic Idealize.ShloMosaic.TcCoe Idealize.ShloMosaic.ValueIdx Idealize.SL.Sem

variable (m : (ℓ : Loc nD τ sig) → Buf (Elt Ideal) ℓ) (ρ : Dev nD → PrngReg)

/-- The argument whose rows are normalised, and the labels, as the launch has them. -/
abbrev zArg (c : Dev nD) : S8192x1024.Idx → EReal := m ((c : Thread nD τ).loc main_arg1)
abbrev labArg (c : Dev nD) : S8192.Idx → BitVec 32 := m ((c : Thread nD τ).loc main_arg3)

/-- Region 1 reads the normalised rows of the argument: what region 0 left in its output array. -/
theorem zn_rows (c : Dev nD) :
    (fun (r : Fin 8192) (k : Fin 1024) => (Vr1 m c main_v0 : S8192x1024.Idx → EReal) (ix2 r k))
      = znS fun r k => zArg m c (ix2 r k) := by
  funext r k
  have h : Vr1 m c main_v0 = Hand.znArr m c := by
    show W1 m c _ = _
    unfold W1; rw [Function.update_self]
  rw [h]
  exact Zn.zn_final (Vr0 m) c r k

/-- Region 1 reads the labels as launched: region 0 does not write them. -/
theorem lab_rows (c : Dev nD) :
    (fun (r : Fin 8192) => (Vr1 m c main_arg3 : S8192.Idx → BitVec 32) (ix1 r)) = fun r => labArg m c (ix1 r) := by
  have h : Vr1 m c main_arg3 = m ((c : Thread nD τ).loc main_arg3) := by
    show W1 m c _ = _
    unfold W1
    rw [Function.update_of_ne (StableHlo.devRef_ne_of_ne (by decide) : (Proc.devRef .tc main_arg3 : DevRef τ sig) ≠ Proc.devRef .tc main_v0)]
  rw [h]

/-- The same-class row sums region 1 leaves are the reference's stage. -/
theorem rs_eq (c : Dev nD) :
    (rsArr m c : S8192.Idx → EReal) = Cert.ReferenceIdeal.Read.val_main_v21 (F := Ideal) (m ((c : Thread nD τ).loc main_arg1)) (m ((c : Thread nD τ).loc main_arg3)) := by
  funext i
  obtain ⟨r, rfl⟩ : ∃ r : Fin 8192, i = ix1 r := ⟨i 0, eq_ix1 i⟩
  refine (rowsS_final (Vr1 m) c r).trans ?_
  refine (congrArg (fun z => rowS z _ r) (zn_rows m c)).trans ?_
  refine (congrArg (fun l => rowS _ l r) (lab_rows m c)).trans ?_
  exact (ref_rowS (m ((c : Thread nD τ).loc main_arg1)) (m ((c : Thread nD τ).loc main_arg3)) r).symm

/-- The different-class row sums likewise. -/
theorem rd_eq (c : Dev nD) :
    (rdArr m c : S8192.Idx → EReal) = Cert.ReferenceIdeal.Read.val_main_v24 (F := Ideal) (m ((c : Thread nD τ).loc main_arg1)) (m ((c : Thread nD τ).loc main_arg3)) := by
  funext i
  obtain ⟨r, rfl⟩ : ∃ r : Fin 8192, i = ix1 r := ⟨i 0, eq_ix1 i⟩
  refine (rowsD_final (Vr1 m) c r).trans ?_
  refine (congrArg (fun z => rowD z _ r) (zn_rows m c)).trans ?_
  refine (congrArg (fun l => rowD _ l r) (lab_rows m c)).trans ?_
  exact (ref_rowD (m ((c : Thread nD τ).loc main_arg1)) (m ((c : Thread nD τ).loc main_arg3)) r).symm

/-- The kernel's result is the reference's last stage of the same arguments. -/
theorem result_eq (c : Dev nD) :
    V9 m (outs m) c main_v20
      = Cert.ReferenceIdeal.Read.val_main_v43 (F := Ideal) (m ((c : Thread nD τ).loc main_arg1)) (m ((c : Thread nD τ).loc main_arg3)) := by
  refine (V9_result m (outs m) c).trans ?_
  rw [ref_tail]
  refine tail_congr ((hF1 m c 4).symm.trans (rs_eq m c)) ((hF1 m c 5).symm.trans (rd_eq m c)) ?_
  exact (V2_of m (outs m) c main_arg3 (by decide)).trans (V1_of m (outs m) c main_arg3 (by decide))

/-! ## The claims -/

theorem frame_ki : Cert.frame_KernelIdeal := fun m ρ _ =>
  (θ_run Cert.KernelIdeal.defs _ _).mono (fun _ h c => (h c).2) (run_main (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

theorem algebraic : Cert.algebraic_KernelIdeal_ReferenceIdeal := by
  intro m ρ m' ρ' _ hagree
  refine ⟨fun c => V9 m (outs m) c main_v20, run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, (hagree c).2.1, (hagree c).2.2.2]
  exact (result_eq m c).symm

end Cert.Proof.IdealClaims

end
-- ==== Proof.lean ====
/-
  The certificate of a pairwise contrastive-loss kernel against its jnp reference, over the extended reals.

  The kernel runs two pallas_calls. The first normalises the rows of `semantic_embeddings`: row `r` divided by
  `max (sqrt (sum over k of z[r,k]²), eps)`, `eps` the f32 nearest `1e-8` (the same word in both programs). The second
  tiles the 8192 × 8192 matrix `exp (zn · znᵀ)` into 1024 × 512 tiles and accumulates, per row, the sum over the columns
  of the row's class other than the row itself, and the sum over the columns of the other classes — sixteen tile sums
  per row, added from zero. The host tail — segment sums by class, the presence mask, the logarithm of the quotient,
  the sum over classes divided by 128 — is the same operations in both programs.

  The reference computes the two row sums as ONE sum over 8192 columns each. Addition on the extended reals is
  commutative and associative, so the two groupings agree; every other operation is the same function of the same
  operands on both sides. The precondition (finite inputs) is not used by the value claim.

  `frame_Kernel` / `frame_KernelIdeal`: the launch of the two regions and the seven host stretches, from one segment
  record per region (Proof/K/Run.lean, Proof/KI/Run.lean; the regions' body obligations in Reg0.lean and Reg1.lean).
  `frame_ReferenceIdeal`: the reference's run with the result dropped. `preserves`: the ideal pass rewrote nothing.
  `algebraic`: Proof/KI/Claims.lean.
-/
import proofs.«136886_j28595892256874_1_alg».proof.Defs
import proofs.«136886_j28595892256874_1_alg».proof.Proof.Gen.Kernel
import proofs.«136886_j28595892256874_1_alg».proof.Proof.Gen.KernelIdeal
import proofs.«136886_j28595892256874_1_alg».proof.Proof.Gen.ReferenceIdeal
import proofs.«136886_j28595892256874_1_alg».proof.Proof.Gen.Pre_finite_inputs
import proofs.«136886_j28595892256874_1_alg».proof.Proof.K.Run
import proofs.«136886_j28595892256874_1_alg».proof.Proof.KI.Claims
import Idealize.ShloMosaic.Adequacy
import Idealize.ShloMosaic.Init

noncomputable section

namespace Cert.Proof

open Idealize.ShloMosaic Idealize.SL.Sem

/-- The word-level kernel runs to the end, faults nowhere and leaves its arguments unchanged: its run, the result
    dropped. -/
theorem frame_k : Cert.frame_Kernel := fun m ρ _ =>
  (θ_run Cert.Kernel.defs _ _).mono (fun _ h c => (h c).2) (Cert.Kernel.Hand.run_main (F := Bits) m ρ)

theorem claim : Cert.Claim := ⟨Cert.Kernel.Gen.facts, Cert.KernelIdeal.Gen.facts, Cert.ReferenceIdeal.Gen.facts, Cert.Pre_finite_inputs.Gen.facts,
  frame_k, IdealClaims.frame_ki, IdealClaims.frame_ri, trivial, IdealClaims.algebraic⟩

end Cert.Proof

end
